-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x400000 : Shape := ⟨2, ![2, 400000]⟩
abbrev S512x256 : Shape := ⟨2, ![512, 256]⟩
abbrev S256 : Shape := ⟨1, ![256]⟩
abbrev S256x129 : Shape := ⟨2, ![256, 129]⟩
abbrev S129 : Shape := ⟨1, ![129]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x129 : S_.BroadcastsInDim S256x129 (![] : Fin 0 → Fin S256x129.rank)
  reducesTo_S256x129_S_d0_1 : S256x129.ReducesTo [0, 1] S_
  bcast_S_S129 : S_.BroadcastsInDim S129 (![] : Fin 0 → Fin S129.rank)
  reducesTo_S129_S_d0 : S129.ReducesTo [0] S_

variable [Facts]

def fn_part1 {F : FTy → Type} [FloatOps F] (main_arg5 : FVec F S256x129 .f32) (main_arg6 : FVec F S256x129 .f32) (main_arg7 : FVec F S129 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x129 .f32 := Host.absf main_arg5
  let main_cst_6 : FVec F S_ .f32 := constant S_ .f32 0x7F800000#32
  let main_v20 : FVec F S256x129 .f32 := broadcastInDim S256x129 ![] bcast_S_S256x129 main_cst_6
  let main_v21 : IVec S256x129 1 := cmpf .olt main_v19 main_v20
  let main_c_7 : IVec S_ 1 := constantI S_ 1 1#1
  let main_v22 : IVec S_ 1 := (fun x v => Host.reduce IntOp.andi x v reducesTo_S256x129_S_d0_1 h_S_) main_v21 main_c_7
  let main_v23 : IVec S_ 1 := andi main_v18 main_v22
  let main_v24 : FVec F S256x129 .f32 := Host.absf main_arg6
  let main_cst_8 : FVec F S_ .f32 := constant S_ .f32 0x7F800000#32
  let main_v25 : FVec F S256x129 .f32 := broadcastInDim S256x129 ![] bcast_S_S256x129 main_cst_8
  let main_v26 : IVec S256x129 1 := cmpf .olt main_v24 main_v25
  let main_c_9 : IVec S_ 1 := constantI S_ 1 1#1
  let main_v27 : IVec S_ 1 := (fun x v => Host.reduce IntOp.andi x v reducesTo_S256x129_S_d0_1 h_S_) main_v26 main_c_9
  let main_v28 : IVec S_ 1 := andi main_v23 main_v27
  let main_v29 : FVec F S129 .f32 := Host.absf main_arg7
  let main_cst_10 : FVec F S_ .f32 := constant S_ .f32 0x7F800000#32
  let main_v30 : FVec F S129 .f32 := broadcastInDim S129 ![] bcast_S_S129 main_cst_10
  let main_v31 : IVec S129 1 := cmpf .olt main_v29 main_v30
  let main_c_11 : IVec S_ 1 := constantI S_ 1 1#1
  let main_v32 : IVec S_ 1 := (fun x v => Host.reduce IntOp.andi x v reducesTo_S129_S_d0 h_S_) main_v31 main_c_11
  let main_v33 : IVec S_ 1 := andi main_v28 main_v32
  main_v33

def fn {F : FTy → Type} [FloatOps F] (main_arg0 : FVec F S100000x512 .f32) (main_arg1 : IVec S2x400000 32) (main_arg2 : FVec F S512x256 .f32) (main_arg3 : FVec F S512x256 .f32) (main_arg4 : FVec F S256 .f32) (main_arg5 : FVec F S256x129 .f32) (main_arg6 : FVec F S256x129 .f32) (main_arg7 : FVec F S129 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S100000x512 : Shape := ⟨2, ![100000, 512]⟩
abbrev S2x400000 : Shape := ⟨2, ![2, 400000]⟩
abbrev S512x256 : Shape := ⟨2, ![512, 256]⟩
abbrev S256 : Shape := ⟨1, ![256]⟩
abbrev S256x129 : Shape := ⟨2, ![256, 129]⟩
abbrev S129 : Shape := ⟨1, ![129]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S400000x512 : Shape := ⟨2, ![400000, 512]⟩
abbrev S1x256 : Shape := ⟨2, ![1, 256]⟩
abbrev S100000x256 : Shape := ⟨2, ![100000, 256]⟩
abbrev S1000x512 : Shape := ⟨2, ![1000, 512]⟩
abbrev S1000x1 : Shape := ⟨2, ![1000, 1]⟩
abbrev S1000x256 : Shape := ⟨2, ![1000, 256]⟩
abbrev S400000x256 : Shape := ⟨2, ![400000, 256]⟩
abbrev S1x129 : Shape := ⟨2, ![1, 129]⟩
abbrev S100000x129 : Shape := ⟨2, ![100000, 129]⟩
abbrev S1000x129 : Shape := ⟨2, ![1000, 129]⟩
abbrev S1000 : Shape := ⟨1, ![1000]⟩

abbrev nBuf : Space → Nat
  | .hbm => 55
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x256, .f32⟩
  | .hbm, ⟨3, _⟩ => ⟨S512x256, .f32⟩
  | .hbm, ⟨4, _⟩ => ⟨S256, .f32⟩
  | .hbm, ⟨5, _⟩ => ⟨S256x129, .f32⟩
  | .hbm, ⟨6, _⟩ => ⟨S256x129, .f32⟩
  | .hbm, ⟨7, _⟩ => ⟨S129, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .f32⟩
  | .hbm, ⟨13, _⟩ => ⟨S400000, .f32⟩
  | .hbm, ⟨14, _⟩ => ⟨S_, .f32⟩
  | .hbm, ⟨15, _⟩ => ⟨S100000, .f32⟩
  | .hbm, ⟨16, _⟩ => ⟨S400000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x512, .f32⟩
  | .hbm, ⟨34, _⟩ => ⟨S_, .f32⟩
  | .hbm, ⟨35, _⟩ => ⟨S100000x512, .f32⟩
  | .hbm, ⟨36, _⟩ => ⟨S400000x1, .i32⟩
  | .hbm, ⟨37, _⟩ => ⟨S100000x512, .f32⟩
  | .hbm, ⟨38, _⟩ => ⟨S1x256, .f32⟩
  | .hbm, ⟨39, _⟩ => ⟨S100000x256, .f32⟩
  | .hbm, ⟨40, _⟩ => ⟨S_, .i32⟩
  | .hbm, ⟨41, _⟩ => ⟨S400000, .i32⟩
  | .hbm, ⟨42, _⟩ => ⟨S400000, .i1⟩
  | .hbm, ⟨43, _⟩ => ⟨S_, .i32⟩
  | .hbm, ⟨44, _⟩ => ⟨S400000, .i32⟩
  | .hbm, ⟨45, _⟩ => ⟨S400000, .i32⟩
  | .hbm, ⟨46, _⟩ => ⟨S400000, .i32⟩
  | .hbm, ⟨47, _⟩ => ⟨S400000x1, .i32⟩
  | .hbm, ⟨48, _⟩ => ⟨S400000x256, .f32⟩
  | .hbm, ⟨49, _⟩ => ⟨S_, .f32⟩
  | .hbm, ⟨50, _⟩ => ⟨S100000x256, .f32⟩
  | .hbm, ⟨51, _⟩ => ⟨S400000x1, .i32⟩
  | .hbm, ⟨52, _⟩ => ⟨S100000x256, .f32⟩
  | .hbm, ⟨53, _⟩ => ⟨S1x129, .f32⟩
  | .hbm, ⟨54, _⟩ => ⟨S100000x129, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x1, .f32⟩
  | .local _ .vmem, ⟨5, _⟩ => ⟨S1000x1, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x1, .f32⟩
  | .local _ .vmem, ⟨16, _⟩ => ⟨S1000x1, .f32⟩
  | .local _ .vmem, ⟨17, _⟩ => ⟨S256x129, .f32⟩
  | .local _ .vmem, ⟨18, _⟩ => ⟨S256x129, .f32⟩
  | .local _ .vmem, ⟨19, _⟩ => ⟨S1x129, .f32⟩
  | .local _ .vmem, ⟨20, _⟩ => ⟨S1000x129, .f32⟩
  | .local _ .vmem, ⟨21, _⟩ => ⟨S1000x129, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x129 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x129 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x129 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x129 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  shapeCasts_S100000_S100000x1 : S100000.ShapeCasts S100000x1
  bcast_S_S100000x512 : S_.BroadcastsInDim S100000x512 (![] : Fin 0 → Fin S100000x512.rank)
  shapeCasts_S256_S1x256 : S256.ShapeCasts S1x256
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S100000x256 : S_.BroadcastsInDim S100000x256 (![] : Fin 0 → Fin S100000x256.rank)
  shapeCasts_S129_S1x129 : S129.ShapeCasts S1x129
  shapeCasts_S1000x256_S1000x256 : S1000x256.ShapeCasts S1000x256
  broadcasts_S1000x1_S1000x256 : S1000x1.Broadcasts S1000x256
  inb_S256x129_S256x129_0_0 : ∀ a, (![0, 0] : Fin 2 → Nat) a + S256x129.size a ≤ S256x129.size a
  h_S256x129 : 0 < S256x129.numel
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S1000x129 : S1x129.Broadcasts S1000x129
  reduces_S1000x129_S1000 : S1000x129.Reduces [1] S1000
  shapeCasts_S1000_S1000x1 : S1000.ShapeCasts S1000x1
  broadcasts_S1000x1_S1000x129 : S1000x1.Broadcasts S1000x129
  inb_S1000x129_S1000x129_0_0 : ∀ a, (![0, 0] : Fin 2 → Nat) a + S1000x129.size a ≤ S1000x129.size a
  h_S1000x129 : 0 < S1000x129.numel
  scatter_S100000_S400000x1_S400000_n_0_0_1_wf : ScatterDims.WF S100000 S400000x1 S400000 [] [0] [0] 1
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  dot_S1000x512_S512x256_S1000x256_1_0_0_1_n_n_wf : DotDims.WF S1000x512 S512x256 S1000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S1000x256_S256x129_S1000x129_1_0_0_1_n_n_wf : DotDims.WF S1000x256 S256x129 S1000x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S100000x256.size a
  hwx0_6 : ∀ i : grid0.Coords, EltTy.bits .f32 = 32 ∨ (Rect.block (s := S100000x256) S1000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S100000x256.size a
  hwx1_0 : ∀ i : grid1.Coords, EltTy.bits .f32 = 32 ∨ (Rect.block (s := S100000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S100000x256.size a
  hwx1_1 : ∀ i : grid1.Coords, EltTy.bits .f32 = 32 ∨ (Rect.block (s := S100000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x129.size a ≤ S256x129.size a
  hwx1_3 : ∀ i : grid1.Coords, EltTy.bits .f32 = 32 ∨ (Rect.block (s := S256x129) S256x129.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x129.size a ≤ S256x129.size a
  hwx1_4 : ∀ i : grid1.Coords, EltTy.bits .f32 = 32 ∨ (Rect.block (s := S256x129) S256x129.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x129.size a ≤ S1x129.size a
  hwx1_5 : ∀ i : grid1.Coords, EltTy.bits .f32 = 32 ∨ (Rect.block (s := S1x129) S1x129.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x129.size a ≤ S100000x129.size a
  hwx1_6 : ∀ i : grid1.Coords, EltTy.bits .f32 = 32 ∨ (Rect.block (s := S100000x129) S1000x129.size (cc1_transform_6 i) (hinb1_6 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S1000x256_S256x129_S1000x129_1_0_0_1_n_n : DotDims S1000x256 S256x129 S1000x129 where
  lhsContracting := [1]
  rhsContracting := [0]
  lhsNonContracting := [0]
  rhsNonContracting := [1]
  lhsBatch := []
  rhsBatch := []
  wf := dot_S1000x256_S256x129_S1000x129_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x129.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x129.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x129.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1000x129.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x400000 : Shape := ⟨2, ![2, 400000]⟩
abbrev S512x256 : Shape := ⟨2, ![512, 256]⟩
abbrev S256 : Shape := ⟨1, ![256]⟩
abbrev S256x129 : Shape := ⟨2, ![256, 129]⟩
abbrev S129 : Shape := ⟨1, ![129]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S400000x256 : Shape := ⟨2, ![400000, 256]⟩
abbrev S100000x129 : Shape := ⟨2, ![100000, 129]⟩
abbrev S1x129 : Shape := ⟨2, ![1, 129]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x256, .f32⟩
  | .hbm, ⟨3, _⟩ => ⟨S512x256, .f32⟩
  | .hbm, ⟨4, _⟩ => ⟨S256, .f32⟩
  | .hbm, ⟨5, _⟩ => ⟨S256x129, .f32⟩
  | .hbm, ⟨6, _⟩ => ⟨S256x129, .f32⟩
  | .hbm, ⟨7, _⟩ => ⟨S129, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S_, .f32⟩
  | .hbm, ⟨22, _⟩ => ⟨S100000x512, .f32⟩
  | .hbm, ⟨23, _⟩ => ⟨S400000x1, .i32⟩
  | .hbm, ⟨24, _⟩ => ⟨S100000x512, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S100000, .f32⟩
  | .hbm, ⟨29, _⟩ => ⟨S400000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x256, .f32⟩
  | .hbm, ⟨55, _⟩ => ⟨S_, .f32⟩
  | .hbm, ⟨56, _⟩ => ⟨S100000x256, .f32⟩
  | .hbm, ⟨57, _⟩ => ⟨S400000x1, .i32⟩
  | .hbm, ⟨58, _⟩ => ⟨S100000x256, .f32⟩
  | .hbm, ⟨59, _⟩ => ⟨S_, .f32⟩
  | .hbm, ⟨60, _⟩ => ⟨S400000, .f32⟩
  | .hbm, ⟨61, _⟩ => ⟨S_, .f32⟩
  | .hbm, ⟨62, _⟩ => ⟨S100000, .f32⟩
  | .hbm, ⟨63, _⟩ => ⟨S400000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S100000x129, .f32⟩
  | .hbm, ⟨72, _⟩ => ⟨S1x129, .f32⟩
  | .hbm, ⟨73, _⟩ => ⟨S100000x129, .f32⟩
  | .hbm, ⟨74, _⟩ => ⟨S100000x129, .f32⟩
  | .hbm, ⟨75, _⟩ => ⟨S100000x129, .f32⟩
  | .hbm, ⟨76, _⟩ => ⟨S100000x129, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x129, .f32⟩
  | .hbm, ⟨84, _⟩ => ⟨S100000x129, .f32⟩
  | .hbm, ⟨85, _⟩ => ⟨S100000x129, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x129, .f32⟩
  | .hbm, ⟨91, _⟩ => ⟨S100000x129, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S129_S1x129_1 : S129.BroadcastsInDim S1x129 (![1] : Fin 1 → Fin S1x129.rank)
  bcast_S1x129_S100000x129_0_1 : S1x129.BroadcastsInDim S100000x129 (![0, 1] : Fin 2 → Fin S100000x129.rank)
  reducesTo_S100000x129_S100000_d1 : S100000x129.ReducesTo [1] S100000
  h_S_ : 0 < S_.numel
  bcast_S100000x1_S100000x129_0_1 : S100000x1.BroadcastsInDim S100000x129 (![0, 1] : Fin 2 → Fin S100000x129.rank)
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  scatter_S100000_S400000x1_S400000_n_0_0_1_wf : ScatterDims.WF S100000 S400000x1 S400000 [] [0] [0] 1
  dot_S100000x512_S512x256_S100000x256_1_0_0_1_n_n_wf : DotDims.WF S100000x512 S512x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x129_S100000x129_1_0_0_1_n_n_wf : DotDims.WF S100000x256 S256x129 S100000x129 [1] [0] [0] [1] [] []

variable [Facts₀]

def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x129_S100000x129_1_0_0_1_n_n : DotDims S100000x256 S256x129 S100000x129 where
  lhsContracting := [1]
  rhsContracting := [0]
  lhsNonContracting := [0]
  rhsNonContracting := [1]
  lhsBatch := []
  rhsBatch := []
  wf := dot_S100000x256_S256x129_S100000x129_1_0_0_1_n_n_wf

class Facts : Prop extends Facts₀ where

variable [Facts]
-- ==== Proof.KHostDefs.lean ====
/-
  The host operations of the kernel's program, as functions of the argument arrays: the two columns of the edge list,
  the source column with negative entries wrapped, the in-degrees, the reciprocal in-degree column `1 / max(deg, 1)`, and
  the neighbour sums (gather the rows at the sources, add them up at the destinations).
-/
import proofs.«177995_j52905407152430_1_alg».proof.Proof.Gen.KernelIdeal

noncomputable section

namespace Cert.KernelIdeal.Hand

open Cert.KernelIdeal Cert.KernelIdeal.Gen Idealize.ShloMosaic

variable {F : FTy → Type} [FloatOps F]

/-- The source column of the edge list. -/
def srcCol (ei : (⟨S2x400000, .i32⟩ : BufTy).Contents (Elt F)) : (⟨S400000, .i32⟩ : BufTy).Contents (Elt F) :=
  shapeCast _ (extractStridedSlice S1x400000 ![0, 0] ei slices_S2x400000_S1x400000_0_0) shapeCasts_S1x400000_S400000

/-- The destination column of the edge list. -/
def dstCol (ei : (⟨S2x400000, .i32⟩ : BufTy).Contents (Elt F)) : (⟨S400000, .i32⟩ : BufTy).Contents (Elt F) :=
  shapeCast _ (extractStridedSlice S1x400000 ![1, 0] ei slices_S2x400000_S1x400000_1_0) shapeCasts_S1x400000_S400000

/-- The source column with a negative entry moved up by the number of nodes. -/
def srcWrapped (ei : (⟨S2x400000, .i32⟩ : BufTy).Contents (Elt F)) : (⟨S400000, .i32⟩ : BufTy).Contents (Elt F) :=
  select (cmpi .slt (srcCol (F := F) ei) (broadcastInDim S400000 ![] bcast_S_S400000 (constantI S_ 32 0#32)))
    (addi (srcCol (F := F) ei) (broadcastInDim S400000 ![] bcast_S_S400000 (constantI S_ 32 100000#32))) (srcCol (F := F) ei)

/-- The in-degrees: ones added up at the destinations. -/
def degree (ei : (⟨S2x400000, .i32⟩ : BufTy).Contents (Elt F)) : (⟨S100000, .f32⟩ : BufTy).Contents (Elt F) :=
  Host.scatterAdd scatter_S100000_S400000x1_S400000_n_0_0_1 (broadcastInDim S100000 ![] bcast_S_S100000 (constant S_ .f32 0x00000000#32))
    (broadcastInDim S400000x1 ![0] bcast_S400000_S400000x1_0 (dstCol (F := F) ei))
    (broadcastInDim S400000 ![] bcast_S_S400000 (constant S_ .f32 0x3F800000#32))

/-- The reciprocal in-degree column `1 / max(deg, 1)`. -/
def recipDeg (ei : (⟨S2x400000, .i32⟩ : BufTy).Contents (Elt F)) : (⟨S100000x1, .f32⟩ : BufTy).Contents (Elt F) :=
  shapeCast _ (Host.divf (broadcastInDim S100000 ![] bcast_S_S100000 (constant S_ .f32 0x3F800000#32))
    (maximumf (degree (F := F) ei) (broadcastInDim S100000 ![] bcast_S_S100000 (constant S_ .f32 0x3F800000#32)))) shapeCasts_S100000_S100000x1

/-- The first layer's neighbour sums: the rows of the node features at the sources, added up at the destinations. -/
def nbrSum1 (x : (⟨S100000x512, .f32⟩ : BufTy).Contents (Elt F)) (ei : (⟨S2x400000, .i32⟩ : BufTy).Contents (Elt F)) :
    (⟨S100000x512, .f32⟩ : BufTy).Contents (Elt F) :=
  Host.scatterAdd scatter_S100000x512_S400000x1_S400000x512_1_0_0_1 (broadcastInDim S100000x512 ![] bcast_S_S100000x512 (constant S_ .f32 0x00000000#32))
    (broadcastInDim S400000x1 ![0] bcast_S400000_S400000x1_0 (dstCol (F := F) ei))
    (Host.gather gather_S100000x512_S400000x1_S400000x512_1_0_n_n_0_1_1512 x (broadcastInDim S400000x1 ![0] bcast_S400000_S400000x1_0 (srcWrapped (F := F) ei)))

/-- The second layer's neighbour sums, of the hidden features. -/
def nbrSum2 (h : (⟨S100000x256, .f32⟩ : BufTy).Contents (Elt F)) (ei : (⟨S2x400000, .i32⟩ : BufTy).Contents (Elt F)) :
    (⟨S100000x256, .f32⟩ : BufTy).Contents (Elt F) :=
  Host.scatterAdd scatter_S100000x256_S400000x1_S400000x256_1_0_0_1 (broadcastInDim S100000x256 ![] bcast_S_S100000x256 (constant S_ .f32 0x00000000#32))
    (broadcastInDim S400000x1 ![0] bcast_S400000_S400000x1_0 (dstCol (F := F) ei))
    (Host.gather gather_S100000x256_S400000x1_S400000x256_1_0_n_n_0_1_1256 h (broadcastInDim S400000x1 ![0] bcast_S400000_S400000x1_0 (srcWrapped (F := F) ei)))

end Cert.KernelIdeal.Hand

end
-- ==== Proof.KHost.lean ====
/-
  What each window's array holds when a region of the kernel's program is entered, read back through the folds of host
  operations and the first region's write-backs, as the host functions of the argument arrays (KHostDefs).
-/
import proofs.«177995_j52905407152430_1_alg».proof.Proof.Gen.KernelIdeal.Frame
import proofs.«177995_j52905407152430_1_alg».proof.Proof.KHostDefs

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

variable (m : (ℓ : Loc nD τ sig) → Buf (Elt F) ℓ) (ρ : Dev nD → PrngReg)

/-! ## The first region's entry contents -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_v23 (c : Dev nD) : V1 m ρ c main_v23 = shapeCast _ (m ((c : Thread nD τ).loc main_arg4)) shapeCasts_S256_S1x256 := by
  show StableHlo.after hostOps0 (W0 m ρ c) (Proc.devRef .tc main_v23) = _
  after_results
  rfl
theorem V1_v12 (c : Dev nD) : V1 m ρ c main_v12 = recipDeg (F := F) (m ((c : Thread nD τ).loc main_arg1)) := by
  show StableHlo.after hostOps0 (W0 m ρ c) (Proc.devRef .tc main_v12) = _
  after_results
  rfl
set_option maxHeartbeats 4000000 in
theorem V1_v22 (c : Dev nD) : V1 m ρ c main_v22 = nbrSum1 (F := F) (m ((c : Thread nD τ).loc main_arg0)) (m ((c : Thread nD τ).loc main_arg1)) := by
  show StableHlo.after hostOps0 (W0 m ρ c) (Proc.devRef .tc main_v22) = _
  after_results_simp
  rfl
theorem V1_v1 (c : Dev nD) : V1 m ρ c main_v1 = srcCol (F := F) (m ((c : Thread nD τ).loc main_arg1)) := by
  show StableHlo.after hostOps0 (W0 m ρ c) (Proc.devRef .tc main_v1) = _
  after_results
  rfl
theorem V1_v3 (c : Dev nD) : V1 m ρ c main_v3 = dstCol (F := F) (m ((c : Thread nD τ).loc main_arg1)) := by
  show StableHlo.after hostOps0 (W0 m ρ c) (Proc.devRef .tc main_v3) = _
  after_results
  rfl

/-! ## The second region's entry contents -/

/-- A buffer neither region 0 nor the second stretch of host operations writes holds at region 1's entry what it held at region 0's. -/
theorem W2_v1 (c : Dev nD) : W2 m ρ c (Proc.devRef .tc main_v1) = srcCol (F := F) (m ((c : Thread nD τ).loc main_arg1)) :=
  (W2_of_ne m ρ c main_v1 (by decide)).trans (V1_v1 m ρ c)
theorem W2_v3 (c : Dev nD) : W2 m ρ c (Proc.devRef .tc main_v3) = dstCol (F := F) (m ((c : Thread nD τ).loc main_arg1)) :=
  (W2_of_ne m ρ c main_v3 (by decide)).trans (V1_v3 m ρ c)
theorem W2_v12 (c : Dev nD) : W2 m ρ c (Proc.devRef .tc main_v12) = recipDeg (F := F) (m ((c : Thread nD τ).loc main_arg1)) :=
  (W2_arr m ρ c 2).trans (((dat0 (V1 m ρ) c).arrAt_in 2 rfl _).trans ((A_eq0 (V1 m ρ) c 2).trans (V1_v12 m ρ c)))
theorem W2_v24 (c : Dev nD) : W2 m ρ c (Proc.devRef .tc main_v24) = (dat0 (V1 m ρ) c).arrAt 6 cfg0.N :=
  W2_arr m ρ c 6

theorem V3_v24 (c : Dev nD) : V3 m ρ c main_v24 = (dat0 (V1 m ρ) c).arrAt 6 cfg0.N := by
  show StableHlo.after hostOps1 (W2 m ρ c) (Proc.devRef .tc main_v24) = _
  after_results
  exact W2_v24 m ρ c
theorem V3_v12 (c : Dev nD) : V3 m ρ c main_v12 = recipDeg (F := F) (m ((c : Thread nD τ).loc main_arg1)) := by
  show StableHlo.after hostOps1 (W2 m ρ c) (Proc.devRef .tc main_v12) = _
  after_results
  exact W2_v12 m ρ c
theorem V3_arg5 (c : Dev nD) : V3 m ρ c main_arg5 = m ((c : Thread nD τ).loc main_arg5) := by
  show StableHlo.after hostOps1 (W2 m ρ c) (Proc.devRef .tc main_arg5) = _
  after_results
  exact (W2_of_ne m ρ c main_arg5 (by decide)).trans (by
    show StableHlo.after hostOps0 (W0 m ρ c) (Proc.devRef .tc main_arg5) = _
    after_results)
theorem V3_arg6 (c : Dev nD) : V3 m ρ c main_arg6 = m ((c : Thread nD τ).loc main_arg6) := by
  show StableHlo.after hostOps1 (W2 m ρ c) (Proc.devRef .tc main_arg6) = _
  after_results
  exact (W2_of_ne m ρ c main_arg6 (by decide)).trans (by
    show StableHlo.after hostOps0 (W0 m ρ c) (Proc.devRef .tc main_arg6) = _
    after_results)
theorem V3_v35 (c : Dev nD) : V3 m ρ c main_v35 = shapeCast _ (m ((c : Thread nD τ).loc main_arg7)) shapeCasts_S129_S1x129 := by
  show StableHlo.after hostOps1 (W2 m ρ c) (Proc.devRef .tc main_v35) = _
  after_results
  refine congrArg (shapeCast _ · shapeCasts_S129_S1x129) ?_
  exact (W2_of_ne m ρ c main_arg7 (by decide)).trans (by
    show StableHlo.after hostOps0 (W0 m ρ c) (Proc.devRef .tc main_arg7) = _
    after_results)
set_option maxHeartbeats 4000000 in
theorem V3_v34 (c : Dev nD) : V3 m ρ c main_v34 = nbrSum2 (F := F) ((dat0 (V1 m ρ) c).arrAt 6 cfg0.N) (m ((c : Thread nD τ).loc main_arg1)) := by
  show StableHlo.after hostOps1 (W2 m ρ c) (Proc.devRef .tc main_v34) = _
  after_results_simp
  rw [W2_v24, W2_v3, W2_v1]
  rfl

end Cert.KernelIdeal.Hand

end
-- ==== Proof.KSpec.lean ====
/-
  The two mean-aggregating graph layers as whole-array functions, index by index, on the extended reals.
  A layer takes node features `X` [N, d], the neighbour sums `MS` [N, d] (row `i` is the sum of the rows of `X` at the
  sources of the edges that end in `i`), the reciprocal in-degrees `R` [N, 1], two weight matrices [d, o] and a bias
  row [1, o]. Its linear part at (i, j) is
      (Σ_k (MS[i,k] · R[i,0]) · Wl[k,j]  +  Σ_k X[i,k] · Wr[k,j])  +  B[0,j].
  The first layer clamps it below at zero; the second subtracts the row's maximum and then the logarithm of the
  row's sum of exponentials (a row-wise log-softmax).
-/
import proofs.«177995_j52905407152430_1_alg».proof.KernelIdeal
import Idealize.ShloMosaic.Lib.ValueIdx

noncomputable section

namespace Cert.KernelIdeal.Hand

open Cert.KernelIdeal Idealize.ShloMosaic Idealize.ShloMosaic.ValueIdx
open scoped BigOperators

/-- The first layer's linear part at row `i`, column `j`. -/
def lin1 (X MS : FVec Ideal S100000x512 .f32) (R : FVec Ideal S100000x1 .f32) (Wl Wr : FVec Ideal S512x256 .f32)
    (B : FVec Ideal S1x256 .f32) (i : Fin 100000) (j : Fin 256) : EReal :=
  ((∑ k : Fin 512, (MS (ix2 i k) * R (ix2 i (0 : Fin 1))) * Wl (ix2 k j)) + ∑ k : Fin 512, X (ix2 i k) * Wr (ix2 k j))
    + B (ix2 (0 : Fin 1) j)

/-- The hidden features: the first layer's linear part clamped below at the value of the zero word. -/
def hidden (X MS : FVec Ideal S100000x512 .f32) (R : FVec Ideal S100000x1 .f32) (Wl Wr : FVec Ideal S512x256 .f32)
    (B : FVec Ideal S1x256 .f32) : FVec Ideal S100000x256 .f32 :=
  fun y => max (lin1 X MS R Wl Wr B (y 0) (y 1)) (Ideal.ofBits .f32 0x00000000#32)

/-- The second layer's linear part (the logits) at row `i`, column `j`. -/
def lin2 (H MS : FVec Ideal S100000x256 .f32) (R : FVec Ideal S100000x1 .f32) (Wl Wr : FVec Ideal S256x129 .f32)
    (B : FVec Ideal S1x129 .f32) (i : Fin 100000) (j : Fin 129) : EReal :=
  ((∑ k : Fin 256, (MS (ix2 i k) * R (ix2 i (0 : Fin 1))) * Wl (ix2 k j)) + ∑ k : Fin 256, H (ix2 i k) * Wr (ix2 k j))
    + B (ix2 (0 : Fin 1) j)

/-- A row's maximum, folded from the value of the word of minus infinity. -/
def rowMax (L : Fin 129 → EReal) : EReal :=
  (Finset.univ : Finset (Fin 129)).fold max (Ideal.ofBits .f32 0xFF800000#32) L

/-- The row-wise log-softmax of a row `L` at column `j`: the entry less the row's maximum, less the logarithm of the
    sum over the row of the exponentials of the entries less the maximum. -/
def logSoftmaxRow (L : Fin 129 → EReal) (j : Fin 129) : EReal :=
  (L j - rowMax L) - Ideal.log (∑ q : Fin 129, Ideal.exp (L q - rowMax L))

/-- The result: the row-wise log-softmax of the second layer's logits. -/
def result (H MS : FVec Ideal S100000x256 .f32) (R : FVec Ideal S100000x1 .f32) (Wl Wr : FVec Ideal S256x129 .f32)
    (B : FVec Ideal S1x129 .f32) : FVec Ideal S100000x129 .f32 :=
  fun y => logSoftmaxRow (lin2 H MS R Wl Wr B (y 0)) (y 1)

end Cert.KernelIdeal.Hand

end
-- ==== Proof.LibKeepdims.lean ====
/-
  Two layout operations of a keep-dimension column, read at an index given by coordinates, for any sizes:
  a column `[a, 1]` broadcast to `[a, b]` reads its row's one entry, and an `[a]` array cast to the column `[a, 1]`
  reads the array at the row.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, u)`, the array at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.Layer1.lean ====
/-
  The first layer's region: what the body stores at a block's entry (p, q) as a formula of the loaded blocks, the block
  that a grid point writes back as a block of the whole-array function `hidden`, and the array after the region.
-/
import proofs.«177995_j52905407152430_1_alg».proof.Proof.Gen.KernelIdeal.Frame
import proofs.«177995_j52905407152430_1_alg».proof.Proof.KSpec
import proofs.«177995_j52905407152430_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The [1000, 512] × [512, 256] product at an entry -/

theorem mmA_lhs_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem mmA_lhs_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem mmA_rhs_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem mmA_rhs_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- The matrix product into a zero accumulator, at entry (p, q): the sum over the contracted coordinate. -/
theorem mmA_apply {φ₁ φ₂ : FTy} (a : FVec Ideal S1000x512 φ₁) (b : FVec Ideal S512x256 φ₂) (p : Fin 1000) (q : Fin 256) :
    matmul dot_S1000x512_S512x256_S1000x256_1_0_0_1_n_n none a b (constant S1000x256 .f32 0x00000000#32) (ix2 p q)
      = ∑ k : Fin 512, a (ix2 p k) * b (ix2 k q) := by
  simp only [matmul]
  rw [Ideal.matmul_constant_zero_apply, ← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 p q) ((ValueIdx.contrEquiv1 dot_S1000x512_S512x256_S1000x256_1_0_0_1_n_n 512 rfl rfl).symm k) = ix2 p k := funext fun a => Fin.ext (by
    match a with
    | ⟨0, _⟩ => exact mmA_lhs_0 _ _
    | ⟨1, _⟩ => exact (mmA_lhs_1 _ _).trans hk)
  have er : dot_S1000x512_S512x256_S1000x256_1_0_0_1_n_n.rhsIdx (ix2 p q) ((ValueIdx.contrEquiv1 dot_S1000x512_S512x256_S1000x256_1_0_0_1_n_n 512 rfl rfl).symm k) = ix2 k q := funext fun a => Fin.ext (by
    match a with
    | ⟨0, _⟩ => exact (mmA_rhs_0 _ _).trans hk
    | ⟨1, _⟩ => exact mmA_rhs_1 _ _)
  rw [el, er]

/-! ## The body's stored value at an entry -/

/-- The stored block at (p, q): the neighbour-sum block scaled row by row by the reciprocal-degree column, times the left
    weights, plus the node block times the right weights, plus the bias row, clamped below at the zero word's value. -/
theorem pay1_apply (v0 : FVec Ideal S1000x512 .f32) (v2 : FVec Ideal S1000x1 .f32) (v7 : FVec Ideal S1000x512 .f32)
    (v9 v11 : FVec Ideal S512x256 .f32) (v16 : FVec Ideal S1x256 .f32) (p : Fin 1000) (q : Fin 256) :
    k0_pay1 (F := Ideal) v0 v2 v7 v9 v11 v16 (ix2 p q)
      = max (((∑ k : Fin 512, (v0 (ix2 p k) * v2 (ix2 p (0 : Fin 1))) * v9 (ix2 k q)) + ∑ k : Fin 512, v7 (ix2 p k) * v11 (ix2 k q))
          + v16 (ix2 (0 : Fin 1) q)) (Ideal.ofBits .f32 0x00000000#32) := by
  unfold k0_pay1
  simp only [maximumf_apply, addf_apply, mmA_apply, truncf_apply, mulf_apply, shapeCast_self, broadcast_apply,
    broadcastTo_a1_ab_apply, broadcastTo_1b_ab_apply]
  rfl

/-! ## The region at entry contents `V`: blocks, write-backs, the array after it -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the three row-tiled inputs and the output sit at block row `t`, the weights and the
    bias at block (0, 0). -/
theorem idx_facts0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem t_lt0 (t : Fin cfg0.N) : t.val < 100 := by have h : cfg0.N = 100 := N_0; have := t.isLt; omega

/-- Row `p` of block row `t` is row `1000 t + p` of the array. -/
def row0 (t : Fin cfg0.N) (p : Fin 1000) : Fin 100000 := ⟨1000 * t.val + p.val, by have := t_lt0 t; have := p.isLt; omega⟩

/-- The node-feature block at point `t` is rows `1000 t …` of the node features. -/
theorem blk0_0 (c : Dev nD) (t : Fin cfg0.N) (p : Fin 1000) (k : Fin 512) :
    (iblk0 V c 0 t : FVec Ideal S1000x512 .f32) (ix2 p k) = (V c main_arg0 : FVec Ideal S100000x512 .f32) (ix2 (row0 t p) k) := by
  obtain ⟨⟨e0, e1⟩, -⟩ := idx_facts0 t
  unfold iblk0
  rw [View.read_apply]
  show V c main_arg0 _ = V c main_arg0 _
  congr 1
  funext a
  apply Fin.ext
  match a with
  | ⟨0, _⟩ => show win0_0.index t (0 : Fin 2) * 1000 + 1 * p.val = 1000 * t.val + p.val; rw [e0]; omega
  | ⟨1, _⟩ => show win0_0.index t (1 : Fin 2) * 512 + 1 * k.val = k.val; rw [e1]; omega

/-- The neighbour-sum block at point `t` is rows `1000 t …` of the neighbour sums. -/
theorem blk0_1 (c : Dev nD) (t : Fin cfg0.N) (p : Fin 1000) (k : Fin 512) :
    (iblk0 V c 1 t : FVec Ideal S1000x512 .f32) (ix2 p k) = (V c main_v22 : FVec Ideal S100000x512 .f32) (ix2 (row0 t p) k) := by
  obtain ⟨-, ⟨e0, e1⟩, -⟩ := idx_facts0 t
  unfold iblk0
  rw [View.read_apply]
  show V c main_v22 _ = V c main_v22 _
  congr 1
  funext a
  apply Fin.ext
  match a with
  | ⟨0, _⟩ => show win0_1.index t (0 : Fin 2) * 1000 + 1 * p.val = 1000 * t.val + p.val; rw [e0]; omega
  | ⟨1, _⟩ => show win0_1.index t (1 : Fin 2) * 512 + 1 * k.val = k.val; rw [e1]; omega

/-- The reciprocal-degree block at point `t` is rows `1000 t …` of the reciprocal-degree column. -/
theorem blk0_2 (c : Dev nD) (t : Fin cfg0.N) (p : Fin 1000) (u : Fin 1) :
    (iblk0 V c 2 t : FVec Ideal S1000x1 .f32) (ix2 p u) = (V c main_v12 : FVec Ideal S100000x1 .f32) (ix2 (row0 t p) u) := by
  obtain ⟨-, -, ⟨e0, e1⟩, -⟩ := idx_facts0 t
  unfold iblk0
  rw [View.read_apply]
  show V c main_v12 _ = V c main_v12 _
  congr 1
  funext a
  apply Fin.ext
  match a with
  | ⟨0, _⟩ => show win0_2.index t (0 : Fin 2) * 1000 + 1 * p.val = 1000 * t.val + p.val; rw [e0]; omega
  | ⟨1, _⟩ => show win0_2.index t (1 : Fin 2) * 1 + 1 * u.val = u.val; rw [e1]; omega

/-- The left weights' block at every point is the whole matrix. -/
theorem blk0_3 (c : Dev nD) (t : Fin cfg0.N) (k : Fin 512) (q : Fin 256) :
    (iblk0 V c 3 t : FVec Ideal S512x256 .f32) (ix2 k q) = (V c main_arg2 : FVec Ideal S512x256 .f32) (ix2 k q) := by
  obtain ⟨-, -, -, ⟨e0, e1⟩, -⟩ := idx_facts0 t
  unfold iblk0
  rw [View.read_apply]
  show V c main_arg2 _ = V c main_arg2 _
  congr 1
  funext a
  apply Fin.ext
  match a with
  | ⟨0, _⟩ => show win0_3.index t (0 : Fin 2) * 512 + 1 * k.val = k.val; rw [e0]; omega
  | ⟨1, _⟩ => show win0_3.index t (1 : Fin 2) * 256 + 1 * q.val = q.val; rw [e1]; omega

/-- The right weights' block at every point is the whole matrix. -/
theorem blk0_4 (c : Dev nD) (t : Fin cfg0.N) (k : Fin 512) (q : Fin 256) :
    (iblk0 V c 4 t : FVec Ideal S512x256 .f32) (ix2 k q) = (V c main_arg3 : FVec Ideal S512x256 .f32) (ix2 k q) := by
  obtain ⟨-, -, -, -, ⟨e0, e1⟩, -⟩ := idx_facts0 t
  unfold iblk0
  rw [View.read_apply]
  show V c main_arg3 _ = V c main_arg3 _
  congr 1
  funext a
  apply Fin.ext
  match a with
  | ⟨0, _⟩ => show win0_4.index t (0 : Fin 2) * 512 + 1 * k.val = k.val; rw [e0]; omega
  | ⟨1, _⟩ => show win0_4.index t (1 : Fin 2) * 256 + 1 * q.val = q.val; rw [e1]; omega

/-- The bias row's block at every point is the whole row. -/
theorem blk0_5 (c : Dev nD) (t : Fin cfg0.N) (u : Fin 1) (q : Fin 256) :
    (iblk0 V c 5 t : FVec Ideal S1x256 .f32) (ix2 u q) = (V c main_v23 : FVec Ideal S1x256 .f32) (ix2 u q) := by
  obtain ⟨-, -, -, -, -, ⟨e0, e1⟩, -⟩ := idx_facts0 t
  unfold iblk0
  rw [View.read_apply]
  show V c main_v23 _ = V c main_v23 _
  congr 1
  funext a
  apply Fin.ext
  match a with
  | ⟨0, _⟩ => show win0_5.index t (0 : Fin 2) * 1 + 1 * u.val = u.val; rw [e0]; omega
  | ⟨1, _⟩ => show win0_5.index t (1 : Fin 2) * 256 + 1 * q.val = q.val; rw [e1]; omega

/-- The hidden features of the arrays as the region finds them. -/
abbrev hiddenAt (c : Dev nD) : FVec Ideal S100000x256 .f32 :=
  hidden (V c main_arg0) (V c main_v22) (V c main_v12) (V c main_arg2) (V c main_arg3) (V c main_v23)

/-- What point `t` writes back is block row `t` of the hidden features. -/
theorem flushed0_eq (c : Dev nD) (t : Fin cfg0.N) :
    (dat0 V c).flushed 6 t = ((cfg0.win 6).blk t).view.read (Elt Ideal) (hiddenAt V c) := by
  obtain ⟨-, -, -, -, -, -, ⟨e0, e1⟩⟩ := idx_facts0 t
  show (cfg0.win 6).cut (grid0.coords t) ((dat0 V c).after 6 t) = _
  rw [after0_6]
  unfold out0_6
  rw [View.canon_unit_zero hz2]
  simp only [View.ld_unit_zero (S := S1000x512) hz2, View.ld_unit_zero (S := S1000x1) hz2, View.ld_unit_zero (S := S512x256) hz2,
    View.ld_unit_zero (S := S1x256) hz2]
  funext j
  obtain ⟨p, q, rfl⟩ : ∃ (p : Fin 1000) (q : Fin 256), j = ix2 p q := ⟨j 0, j 1, eq_ix2 j⟩
  rw [View.read_apply]
  refine (pay1_apply (iblk0 V c 1 t) (iblk0 V c 2 t) (iblk0 V c 0 t) (iblk0 V c 3 t) (iblk0 V c 4 t) (iblk0 V c 5 t) p q).trans ?_
  have hemb : ((cfg0.win 6).blk t).view.emb (ix2 p q) = ix2 (row0 t p) q := by
    funext a
    apply Fin.ext
    match a with
    | ⟨0, _⟩ => show win0_6.index t (0 : Fin 2) * 1000 + 1 * p.val = 1000 * t.val + p.val; rw [e0]; omega
    | ⟨1, _⟩ => show win0_6.index t (1 : Fin 2) * 256 + 1 * q.val = q.val; rw [e1]; omega
  rw [hemb]
  show _ = max (lin1 _ _ _ _ _ _ (row0 t p) q) _
  unfold lin1
  simp only [blk0_0, blk0_1, blk0_2, blk0_3, blk0_4, blk0_5]

/-- Every row of the array lies in the block row of the point `row / 1000`. -/
theorem cover0 (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  let t : Fin cfg0.N := ⟨(i 0).val / 1000, by rw [show cfg0.N = 100 from N_0]; omega⟩
  obtain ⟨-, -, -, -, -, -, ⟨e0, e1⟩⟩ := idx_facts0 t
  refine ⟨t, flush0_6 t, ?_⟩
  show i ∈ ((View.whole main_v24).slice (win0_6.rect t)).set
  rw [View.set_slice_whole, Rect.mem_set_unit]
  intro a
  match a with
  | ⟨0, _⟩ =>
    show win0_6.index t (0 : Fin 2) * 1000 ≤ (i 0).val ∧ (i 0).val < win0_6.index t (0 : Fin 2) * 1000 + 1000
    rw [e0]; show (i 0).val / 1000 * 1000 ≤ (i 0).val ∧ (i 0).val < (i 0).val / 1000 * 1000 + 1000; omega
  | ⟨1, _⟩ =>
    show win0_6.index t (1 : Fin 2) * 256 ≤ (i 1).val ∧ (i 1).val < win0_6.index t (1 : Fin 2) * 256 + 256
    rw [e1]; omega

/-- After the region the output array holds the hidden features of the arrays it was entered with. -/
theorem final0 (c : Dev nD) : (dat0 V c).arrAt 6 cfg0.N = hiddenAt V c :=
  (dat0 V c).arrAt_eq_of_cover 6 (hiddenAt V c) (fun t _ => flushed0_eq V c t) cover0

end Cert.KernelIdeal.Hand

end
-- ==== Proof.Layer2.lean ====
/-
  The second layer's region: the body's stored value at a block's entry (p, q) — the row-wise log-softmax of the block's
  logits —, the block a grid point writes back as a block of the whole-array function `result`, and the array after the region.
-/
import proofs.«177995_j52905407152430_1_alg».proof.Proof.Gen.KernelIdeal.Frame
import proofs.«177995_j52905407152430_1_alg».proof.Proof.KSpec
import proofs.«177995_j52905407152430_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The [1000, 256] × [256, 129] product at an entry -/

theorem mmB_lhs_0 (i : S1000x129.Idx) (q : dot_S1000x256_S256x129_S1000x129_1_0_0_1_n_n.contr.Idx) :
    (dot_S1000x256_S256x129_S1000x129_1_0_0_1_n_n.lhsIdx i q 0).val = (i 0).val := by
  unfold DotDims.lhsIdx
  rw [dif_neg (show ¬(0 : Fin S1000x256.rank) ∈ dot_S1000x256_S256x129_S1000x129_1_0_0_1_n_n.lhsBatch by decide), dif_pos (show (0 : Fin S1000x256.rank) ∈ dot_S1000x256_S256x129_S1000x129_1_0_0_1_n_n.lhsNonContracting by decide)]
  rfl
theorem mmB_lhs_1 (i : S1000x129.Idx) (q : dot_S1000x256_S256x129_S1000x129_1_0_0_1_n_n.contr.Idx) :
    (dot_S1000x256_S256x129_S1000x129_1_0_0_1_n_n.lhsIdx i q 1).val = (q ⟨0, by decide⟩).val :=
  dot_S1000x256_S256x129_S1000x129_1_0_0_1_n_n.lhsIdx_val_of_single rfl i q
theorem mmB_rhs_0 (i : S1000x129.Idx) (q : dot_S1000x256_S256x129_S1000x129_1_0_0_1_n_n.contr.Idx) :
    (dot_S1000x256_S256x129_S1000x129_1_0_0_1_n_n.rhsIdx i q 0).val = (q ⟨0, by decide⟩).val :=
  dot_S1000x256_S256x129_S1000x129_1_0_0_1_n_n.rhsIdx_val_of_single rfl i q
theorem mmB_rhs_1 (i : S1000x129.Idx) (q : dot_S1000x256_S256x129_S1000x129_1_0_0_1_n_n.contr.Idx) :
    (dot_S1000x256_S256x129_S1000x129_1_0_0_1_n_n.rhsIdx i q 1).val = (i 1).val := by
  unfold DotDims.rhsIdx
  rw [dif_neg (show ¬(1 : Fin S256x129.rank) ∈ dot_S1000x256_S256x129_S1000x129_1_0_0_1_n_n.rhsBatch by decide), dif_pos (show (1 : Fin S256x129.rank) ∈ dot_S1000x256_S256x129_S1000x129_1_0_0_1_n_n.rhsNonContracting by decide)]
  rfl

/-- The matrix product into a zero accumulator, at entry (p, q): the sum over the contracted coordinate. -/
theorem mmB_apply {φ₁ φ₂ : FTy} (a : FVec Ideal S1000x256 φ₁) (b : FVec Ideal S256x129 φ₂) (p : Fin 1000) (q : Fin 129) :
    matmul dot_S1000x256_S256x129_S1000x129_1_0_0_1_n_n none a b (constant S1000x129 .f32 0x00000000#32) (ix2 p q)
      = ∑ k : Fin 256, a (ix2 p k) * b (ix2 k q) := by
  simp only [matmul]
  rw [Ideal.matmul_constant_zero_apply, ← Equiv.sum_comp (ValueIdx.contrEquiv1 dot_S1000x256_S256x129_S1000x129_1_0_0_1_n_n 256 rfl rfl).symm]
  refine Finset.sum_congr rfl fun k _ => ?_
  have hk := ValueIdx.contrEquiv1_symm_val dot_S1000x256_S256x129_S1000x129_1_0_0_1_n_n 256 rfl rfl k
  have el : dot_S1000x256_S256x129_S1000x129_1_0_0_1_n_n.lhsIdx (ix2 p q) ((ValueIdx.contrEquiv1 dot_S1000x256_S256x129_S1000x129_1_0_0_1_n_n 256 rfl rfl).symm k) = ix2 p k := funext fun a => Fin.ext (by
    match a with
    | ⟨0, _⟩ => exact mmB_lhs_0 _ _
    | ⟨1, _⟩ => exact (mmB_lhs_1 _ _).trans hk)
  have er : dot_S1000x256_S256x129_S1000x129_1_0_0_1_n_n.rhsIdx (ix2 p q) ((ValueIdx.contrEquiv1 dot_S1000x256_S256x129_S1000x129_1_0_0_1_n_n 256 rfl rfl).symm k) = ix2 k q := funext fun a => Fin.ext (by
    match a with
    | ⟨0, _⟩ => exact (mmB_rhs_0 _ _).trans hk
    | ⟨1, _⟩ => exact mmB_rhs_1 _ _)
  rw [el, er]

/-! ## The row-wise log-softmax of a block of logits, at an entry -/

/-- The index a row reduction inserts the coordinate `k` at is (p, k). -/
theorem lift_row (p : Fin 1000) (k : Fin 129) : reduces_S1000x129_S1000.lift (ix1 p) k = ix2 p k :=
  funext fun a => Fin.ext (by
    match a with
    | ⟨0, _⟩ => rfl
    | ⟨1, _⟩ => rfl)

/-- The tail of the body on a block `L` of logits, at (p, q): the entry less its row's maximum, less the logarithm of the
    row's sum of exponentials of the entries less the maximum. -/
theorem softmax_tail (L : FVec Ideal S1000x129 .f32) (p : Fin 1000) (q : Fin 129) :
    subf (subf L (broadcastTo S1000x129 (shapeCast S1000x1 (multiReduction .maximumf [1] S1000 L 0xFF800000#32 reduces_S1000x129_S1000 (.inl rfl) rfl) shapeCasts_S1000_S1000x1) broadcasts_S1000x1_S1000x129))
        (broadcastTo S1000x129 (log (shapeCast S1000x1 (multiReduction .add [1] S1000
          (exp (subf L (broadcastTo S1000x129 (shapeCast S1000x1 (multiReduction .maximumf [1] S1000 L 0xFF800000#32 reduces_S1000x129_S1000 (.inl rfl) rfl) shapeCasts_S1000_S1000x1) broadcasts_S1000x1_S1000x129)))
          0x00000000#32 reduces_S1000x129_S1000 (.inl rfl) rfl) shapeCasts_S1000_S1000x1)) broadcasts_S1000x1_S1000x129) (ix2 p q)
      = logSoftmaxRow (fun j => L (ix2 p j)) q := by
  have hmax : ∀ r : Fin 1000, multiReduction .maximumf [1] S1000 L 0xFF800000#32 reduces_S1000x129_S1000 (.inl rfl) rfl (ix1 r)
      = rowMax (fun j => L (ix2 r j)) := fun r =>
    (Ideal.multiReduction_maximumf_single L 0xFF800000#32 reduces_S1000x129_S1000 (.inl rfl) rfl (ix1 r)).trans (by
      unfold rowMax
      refine congrArg (Finset.fold max _ · Finset.univ) (funext fun k => ?_)
      exact congrArg L (lift_row r k))
  have hsum : ∀ (E : FVec Ideal S1000x129 .f32) (r : Fin 1000), multiReduction .add [1] S1000 E 0x00000000#32 reduces_S1000x129_S1000 (.inl rfl) rfl (ix1 r)
      = ∑ k : Fin 129, E (ix2 r k) := fun E r =>
    (Ideal.multiReduction_add_single E 0x00000000#32 reduces_S1000x129_S1000 (.inl rfl) rfl (ix1 r)).trans
      (Finset.sum_congr rfl fun k _ => congrArg E (lift_row r k))
  unfold logSoftmaxRow
  simp only [subf_apply, broadcastTo_a1_ab_apply, shapeCast_a_a1_apply, hmax, hsum, log, exp, Ideal.log_def, Ideal.exp_def]

/-! ## The body's stored value at an entry -/

/-- The stored block at (p, q): the row-wise log-softmax of the block's logits — the neighbour-sum block scaled row by row
    by the reciprocal-degree column, times the left weights, plus the hidden block times the right weights, plus the bias row. -/
theorem pay2_apply (v0 : FVec Ideal S1000x256 .f32) (v2 : FVec Ideal S1000x1 .f32) (v7 : FVec Ideal S1000x256 .f32)
    (v10 v12 : FVec Ideal S256x129 .f32) (v17 : FVec Ideal S1x129 .f32) (p : Fin 1000) (q : Fin 129) :
    k1_pay1 (F := Ideal) v0 v2 v7 v10 v12 v17 (ix2 p q)
      = logSoftmaxRow (fun j => ((∑ k : Fin 256, (v0 (ix2 p k) * v2 (ix2 p (0 : Fin 1))) * v10 (ix2 k j)) + ∑ k : Fin 256, v7 (ix2 p k) * v12 (ix2 k j))
          + v17 (ix2 (0 : Fin 1) j)) q := by
  unfold k1_pay1
  refine (softmax_tail _ p q).trans ?_
  refine congrArg (logSoftmaxRow · q) (funext fun j => ?_)
  simp only [addf_apply, mmB_apply, truncf_apply, mulf_apply, shapeCast_self, broadcastTo_a1_ab_apply, broadcastTo_1b_ab_apply]

/-! ## The region at entry contents `V`: blocks, write-backs, the array after it -/

variable (V : (c : Dev nD) → (b : Ref sig .tc) → Buf (Elt Ideal) ((c : Thread nD τ).loc b))

theorem hzB : (![0, 0] : Fin 2 → Nat) = fun _ => 0 := funext fun a => by fin_cases a <;> rfl

/-- The printed index maps over the grid: the three row-tiled inputs and the output sit at block row `t`, the weights and the
    bias at block (0, 0). -/
theorem idx_facts1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

theorem t_lt1 (t : Fin cfg1.N) : t.val < 100 := by have h : cfg1.N = 100 := N_1; have := t.isLt; omega

/-- Row `p` of block row `t` is row `1000 t + p` of the array. -/
def row1 (t : Fin cfg1.N) (p : Fin 1000) : Fin 100000 := ⟨1000 * t.val + p.val, by have := t_lt1 t; have := p.isLt; omega⟩

/-- The hidden-feature block at point `t` is rows `1000 t …` of the hidden features. -/
theorem blk1_0 (c : Dev nD) (t : Fin cfg1.N) (p : Fin 1000) (k : Fin 256) :
    (iblk1 V c 0 t : FVec Ideal S1000x256 .f32) (ix2 p k) = (V c main_v24 : FVec Ideal S100000x256 .f32) (ix2 (row1 t p) k) := by
  obtain ⟨⟨e0, e1⟩, -⟩ := idx_facts1 t
  unfold iblk1
  rw [View.read_apply]
  show V c main_v24 _ = V c main_v24 _
  congr 1
  funext a
  apply Fin.ext
  match a with
  | ⟨0, _⟩ => show win1_0.index t (0 : Fin 2) * 1000 + 1 * p.val = 1000 * t.val + p.val; rw [e0]; omega
  | ⟨1, _⟩ => show win1_0.index t (1 : Fin 2) * 256 + 1 * k.val = k.val; rw [e1]; omega

/-- The neighbour-sum block at point `t` is rows `1000 t …` of the neighbour sums. -/
theorem blk1_1 (c : Dev nD) (t : Fin cfg1.N) (p : Fin 1000) (k : Fin 256) :
    (iblk1 V c 1 t : FVec Ideal S1000x256 .f32) (ix2 p k) = (V c main_v34 : FVec Ideal S100000x256 .f32) (ix2 (row1 t p) k) := by
  obtain ⟨-, ⟨e0, e1⟩, -⟩ := idx_facts1 t
  unfold iblk1
  rw [View.read_apply]
  show V c main_v34 _ = V c main_v34 _
  congr 1
  funext a
  apply Fin.ext
  match a with
  | ⟨0, _⟩ => show win1_1.index t (0 : Fin 2) * 1000 + 1 * p.val = 1000 * t.val + p.val; rw [e0]; omega
  | ⟨1, _⟩ => show win1_1.index t (1 : Fin 2) * 256 + 1 * k.val = k.val; rw [e1]; omega

/-- The reciprocal-degree block at point `t` is rows `1000 t …` of the reciprocal-degree column. -/
theorem blk1_2 (c : Dev nD) (t : Fin cfg1.N) (p : Fin 1000) (u : Fin 1) :
    (iblk1 V c 2 t : FVec Ideal S1000x1 .f32) (ix2 p u) = (V c main_v12 : FVec Ideal S100000x1 .f32) (ix2 (row1 t p) u) := by
  obtain ⟨-, -, ⟨e0, e1⟩, -⟩ := idx_facts1 t
  unfold iblk1
  rw [View.read_apply]
  show V c main_v12 _ = V c main_v12 _
  congr 1
  funext a
  apply Fin.ext
  match a with
  | ⟨0, _⟩ => show win1_2.index t (0 : Fin 2) * 1000 + 1 * p.val = 1000 * t.val + p.val; rw [e0]; omega
  | ⟨1, _⟩ => show win1_2.index t (1 : Fin 2) * 1 + 1 * u.val = u.val; rw [e1]; omega

/-- The left weights' block at every point is the whole matrix. -/
theorem blk1_3 (c : Dev nD) (t : Fin cfg1.N) (k : Fin 256) (q : Fin 129) :
    (iblk1 V c 3 t : FVec Ideal S256x129 .f32) (ix2 k q) = (V c main_arg5 : FVec Ideal S256x129 .f32) (ix2 k q) := by
  obtain ⟨-, -, -, ⟨e0, e1⟩, -⟩ := idx_facts1 t
  unfold iblk1
  rw [View.read_apply]
  show V c main_arg5 _ = V c main_arg5 _
  congr 1
  funext a
  apply Fin.ext
  match a with
  | ⟨0, _⟩ => show win1_3.index t (0 : Fin 2) * 256 + 1 * k.val = k.val; rw [e0]; omega
  | ⟨1, _⟩ => show win1_3.index t (1 : Fin 2) * 129 + 1 * q.val = q.val; rw [e1]; omega

/-- The right weights' block at every point is the whole matrix. -/
theorem blk1_4 (c : Dev nD) (t : Fin cfg1.N) (k : Fin 256) (q : Fin 129) :
    (iblk1 V c 4 t : FVec Ideal S256x129 .f32) (ix2 k q) = (V c main_arg6 : FVec Ideal S256x129 .f32) (ix2 k q) := by
  obtain ⟨-, -, -, -, ⟨e0, e1⟩, -⟩ := idx_facts1 t
  unfold iblk1
  rw [View.read_apply]
  show V c main_arg6 _ = V c main_arg6 _
  congr 1
  funext a
  apply Fin.ext
  match a with
  | ⟨0, _⟩ => show win1_4.index t (0 : Fin 2) * 256 + 1 * k.val = k.val; rw [e0]; omega
  | ⟨1, _⟩ => show win1_4.index t (1 : Fin 2) * 129 + 1 * q.val = q.val; rw [e1]; omega

/-- The bias row's block at every point is the whole row. -/
theorem blk1_5 (c : Dev nD) (t : Fin cfg1.N) (u : Fin 1) (q : Fin 129) :
    (iblk1 V c 5 t : FVec Ideal S1x129 .f32) (ix2 u q) = (V c main_v35 : FVec Ideal S1x129 .f32) (ix2 u q) := by
  obtain ⟨-, -, -, -, -, ⟨e0, e1⟩, -⟩ := idx_facts1 t
  unfold iblk1
  rw [View.read_apply]
  show V c main_v35 _ = V c main_v35 _
  congr 1
  funext a
  apply Fin.ext
  match a with
  | ⟨0, _⟩ => show win1_5.index t (0 : Fin 2) * 1 + 1 * u.val = u.val; rw [e0]; omega
  | ⟨1, _⟩ => show win1_5.index t (1 : Fin 2) * 129 + 1 * q.val = q.val; rw [e1]; omega

/-- The result of the arrays as the region finds them. -/
abbrev resultAt (c : Dev nD) : FVec Ideal S100000x129 .f32 :=
  result (V c main_v24) (V c main_v34) (V c main_v12) (V c main_arg5) (V c main_arg6) (V c main_v35)

/-- What point `t` writes back is block row `t` of the result. -/
theorem flushed1_eq (c : Dev nD) (t : Fin cfg1.N) :
    (dat1 V c).flushed 6 t = ((cfg1.win 6).blk t).view.read (Elt Ideal) (resultAt V c) := by
  obtain ⟨-, -, -, -, -, -, ⟨e0, e1⟩⟩ := idx_facts1 t
  show (cfg1.win 6).cut (grid1.coords t) ((dat1 V c).after 6 t) = _
  rw [after1_6]
  unfold out1_6
  rw [View.canon_unit_zero hzB]
  simp only [View.ld_unit_zero (S := S1000x256) hzB, View.ld_unit_zero (S := S1000x1) hzB, View.ld_unit_zero (S := S256x129) hzB,
    View.ld_unit_zero (S := S1x129) hzB]
  funext j
  obtain ⟨p, q, rfl⟩ : ∃ (p : Fin 1000) (q : Fin 129), j = ix2 p q := ⟨j 0, j 1, eq_ix2 j⟩
  rw [View.read_apply]
  refine (pay2_apply (iblk1 V c 1 t) (iblk1 V c 2 t) (iblk1 V c 0 t) (iblk1 V c 3 t) (iblk1 V c 4 t) (iblk1 V c 5 t) p q).trans ?_
  have hemb : ((cfg1.win 6).blk t).view.emb (ix2 p q) = ix2 (row1 t p) q := by
    funext a
    apply Fin.ext
    match a with
    | ⟨0, _⟩ => show win1_6.index t (0 : Fin 2) * 1000 + 1 * p.val = 1000 * t.val + p.val; rw [e0]; omega
    | ⟨1, _⟩ => show win1_6.index t (1 : Fin 2) * 129 + 1 * q.val = q.val; rw [e1]; omega
  rw [hemb]
  show _ = logSoftmaxRow (lin2 _ _ _ _ _ _ (row1 t p)) q
  refine congrArg (logSoftmaxRow · q) (funext fun j => ?_)
  unfold lin2
  simp only [blk1_0, blk1_1, blk1_2, blk1_3, blk1_4, blk1_5]

/-- Every row of the array lies in the block row of the point `row / 1000`. -/
theorem cover1 (i : S100000x129.Idx) : ∃ t : Fin cfg1.N, (cfg1.win 6).flush t = true ∧ i ∈ ((cfg1.win 6).blk t).view.set := by
  have hi0 : (i 0).val < 100000 := (i 0).isLt
  have hi1 : (i 1).val < 129 := (i 1).isLt
  let t : Fin cfg1.N := ⟨(i 0).val / 1000, by rw [show cfg1.N = 100 from N_1]; omega⟩
  obtain ⟨-, -, -, -, -, -, ⟨e0, e1⟩⟩ := idx_facts1 t
  refine ⟨t, flush1_6 t, ?_⟩
  show i ∈ ((View.whole main_v36).slice (win1_6.rect t)).set
  rw [View.set_slice_whole, Rect.mem_set_unit]
  intro a
  match a with
  | ⟨0, _⟩ =>
    show win1_6.index t (0 : Fin 2) * 1000 ≤ (i 0).val ∧ (i 0).val < win1_6.index t (0 : Fin 2) * 1000 + 1000
    rw [e0]; show (i 0).val / 1000 * 1000 ≤ (i 0).val ∧ (i 0).val < (i 0).val / 1000 * 1000 + 1000; omega
  | ⟨1, _⟩ =>
    show win1_6.index t (1 : Fin 2) * 129 ≤ (i 1).val ∧ (i 1).val < win1_6.index t (1 : Fin 2) * 129 + 129
    rw [e1]; omega

/-- After the region the output array holds the result of the arrays it was entered with. -/
theorem final1 (c : Dev nD) : (dat1 V c).arrAt 6 cfg1.N = resultAt V c :=
  (dat1 V c).arrAt_eq_of_cover 6 (resultAt V c) (fun t _ => flushed1_eq V c t) cover1

end Cert.KernelIdeal.Hand

end
-- ==== Proof.KResult.lean ====
/-
  The program's result as one function of the eight argument arrays: the hidden features are the first layer of the node
  features, their neighbour sums and the reciprocal in-degrees; the result is the second layer, with its row-wise
  log-softmax, of the hidden features, their neighbour sums and the same reciprocal in-degrees.
-/
import proofs.«177995_j52905407152430_1_alg».proof.Proof.KSpec
import proofs.«177995_j52905407152430_1_alg».proof.Proof.KHostDefs

noncomputable section

namespace Cert.KernelIdeal.Hand

open Cert.KernelIdeal Cert.KernelIdeal.Gen Idealize.ShloMosaic

/-- The hidden features as a function of the argument arrays. -/
def hiddenOf (x0 : FVec Ideal S100000x512 .f32) (x1 : IVec S2x400000 32) (x2 x3 : FVec Ideal S512x256 .f32) (x4 : FVec Ideal S256 .f32) :
    FVec Ideal S100000x256 .f32 :=
  hidden x0 (nbrSum1 (F := Ideal) x0 x1) (recipDeg (F := Ideal) x1) x2 x3 (shapeCast S1x256 x4 shapeCasts_S256_S1x256)

/-- The program's result as a function of the argument arrays. -/
def resultOf (x0 : FVec Ideal S100000x512 .f32) (x1 : IVec S2x400000 32) (x2 x3 : FVec Ideal S512x256 .f32) (x4 : FVec Ideal S256 .f32)
    (x5 x6 : FVec Ideal S256x129 .f32) (x7 : FVec Ideal S129 .f32) : FVec Ideal S100000x129 .f32 :=
  result (hiddenOf x0 x1 x2 x3 x4) (nbrSum2 (F := Ideal) (hiddenOf x0 x1 x2 x3 x4) x1) (recipDeg (F := Ideal) x1) x5 x6
    (shapeCast S1x129 x7 shapeCasts_S129_S1x129)

end Cert.KernelIdeal.Hand

end
-- ==== Proof.KValue.lean ====
/-
  The kernel program's result array as one function of the argument arrays: the second region's write-backs are the
  row-wise log-softmax layer of the first region's write-backs (the hidden features) and of their neighbour sums.
-/
import proofs.«177995_j52905407152430_1_alg».proof.Proof.KernelRun
import proofs.«177995_j52905407152430_1_alg».proof.Proof.KHost
import proofs.«177995_j52905407152430_1_alg».proof.Proof.Layer1
import proofs.«177995_j52905407152430_1_alg».proof.Proof.Layer2
import proofs.«177995_j52905407152430_1_alg».proof.Proof.KResult

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the first region its output array holds the hidden features of the arguments. -/
theorem hidden_arr (c : Dev nD) : (dat0 (V1 m ρ) c).arrAt 6 cfg0.N
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) := by
  rw [final0 (V1 m ρ) c]
  unfold hiddenAt hiddenOf
  rw [V1_arg0, V1_v22, V1_v12, V1_arg2, V1_arg3, V1_v23]

/-- After the second region its output array holds the result of the arguments. -/
theorem result_arr (c : Dev nD) : (dat1 (V3 m ρ) c).arrAt 6 cfg1.N
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [final1 (V3 m ρ) c]
  unfold resultAt resultOf
  rw [V3_v24, V3_v34, V3_v12, V3_arg5, V3_arg6, V3_v35, hidden_arr]

/-- The kernel program's run: the result array at `resultOf` of the arguments, the arguments unchanged. -/
theorem run_value : θ_run defs (onTc (τ := τ) (main (F := Ideal))) ⟨m, fun _ => 0, ρ⟩ (fun r => ∀ c : Dev nD,
      r.2.mem ((c.tc : Thread nD τ).loc main_v36)
        = resultOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_arr m ρ c), (h c).2⟩) (run_result m ρ)

end Cert.KernelIdeal.Hand

end
-- ==== Proof.RefRunHand.lean ====
/-
  The reference program's run, read back in three stretches of its operation list (`opsA`, `opsB1`, `opsB2`): the first 38
  operations end at the hidden features, the next 31 compute the second layer's logits from the hidden features, the two
  edge columns and the second layer's arguments, and the last 15 are the row-wise log-softmax of the logits. After each
  stretch a buffer holds the stage function (RefRead) of the launch contents; an argument buffer is written by no operation.
-/
import proofs.«177995_j52905407152430_1_alg».proof.Proof.RefRead
import Idealize.ShloMosaic.Lib.Pipeline.Frame
import Idealize.ShloMosaic.Lib.StableHlo.Run

set_option maxRecDepth 16384

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## A typed reference's two transports -/

/-- Contents moved to a typed reference's buffer type and back are the contents. -/
theorem ofBuf_toBuf' {T : BufTy} {Val : EltTy → Type} (x : TRef sig T) (v : T.Contents Val) : x.ofBuf (x.toBuf v) = v := by
  obtain ⟨r, h, h1, h2⟩ := x
  subst h
  rfl

/-- At the logits' buffer and at the result's, whose types are literally the values' types, a transport is the identity. -/
theorem ofBuf_v54 (v : main_v54.ty.Contents (Elt F)) : (TRef.of (T := ⟨S100000x129, .f32⟩) main_v54).ofBuf v = v := rfl
theorem toBuf_v55 (v : (⟨S100000x129, .f32⟩ : BufTy).Contents (Elt F)) : (TRef.of (T := ⟨S100000x129, .f32⟩) main_v55).toBuf v = v := rfl

/-! ## The first stretch -/

set_option maxHeartbeats 4000000 in
theorem stageA_v29 (W : Valuation τ sig (Elt F)) : after opsA W (Proc.devRef .tc main_v29)
    = val_main_v29 (F := F) (W (Proc.devRef .tc main_arg0)) (W (Proc.devRef .tc main_arg1)) (W (Proc.devRef .tc main_arg2)) (W (Proc.devRef .tc main_arg3)) (W (Proc.devRef .tc main_arg4)) := by
  after_results_simp
  simp only [TRef.ofBuf, TRef.toBuf, cast_eq]
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22, val_main_v23, val_main_v24, val_main_v25, val_main_v26, val_main_v27, val_main_v28, val_main_call0_cst, val_main_call0_v0, val_main_v29]
  rfl
set_option maxHeartbeats 4000000 in
theorem stageA_v1 (W : Valuation τ sig (Elt F)) : after opsA W (Proc.devRef .tc main_v1) = val_main_v1 (F := F) (W (Proc.devRef .tc main_arg1)) := by
  after_results_simp
  simp only [val_main_v1, val_main_v0]
  rfl
set_option maxHeartbeats 4000000 in
theorem stageA_v3 (W : Valuation τ sig (Elt F)) : after opsA W (Proc.devRef .tc main_v3) = val_main_v3 (F := F) (W (Proc.devRef .tc main_arg1)) := by
  after_results_simp
  simp only [val_main_v3, val_main_v2]
  rfl
theorem stageA_arg0 (W : Valuation τ sig (Elt F)) : after opsA W (Proc.devRef .tc main_arg0) = W (Proc.devRef .tc main_arg0) := by
  after_results_simp
theorem stageA_arg1 (W : Valuation τ sig (Elt F)) : after opsA W (Proc.devRef .tc main_arg1) = W (Proc.devRef .tc main_arg1) := by
  after_results_simp
theorem stageA_arg2 (W : Valuation τ sig (Elt F)) : after opsA W (Proc.devRef .tc main_arg2) = W (Proc.devRef .tc main_arg2) := by
  after_results_simp
theorem stageA_arg3 (W : Valuation τ sig (Elt F)) : after opsA W (Proc.devRef .tc main_arg3) = W (Proc.devRef .tc main_arg3) := by
  after_results_simp
theorem stageA_arg4 (W : Valuation τ sig (Elt F)) : after opsA W (Proc.devRef .tc main_arg4) = W (Proc.devRef .tc main_arg4) := by
  after_results_simp
theorem stageA_arg5 (W : Valuation τ sig (Elt F)) : after opsA W (Proc.devRef .tc main_arg5) = W (Proc.devRef .tc main_arg5) := by
  after_results_simp
theorem stageA_arg6 (W : Valuation τ sig (Elt F)) : after opsA W (Proc.devRef .tc main_arg6) = W (Proc.devRef .tc main_arg6) := by
  after_results_simp
theorem stageA_arg7 (W : Valuation τ sig (Elt F)) : after opsA W (Proc.devRef .tc main_arg7) = W (Proc.devRef .tc main_arg7) := by
  after_results_simp

/-! ## The second stretch -/

set_option maxHeartbeats 8000000 in
theorem stageB1_v54 (W : Valuation τ sig (Elt F)) (x0 : (⟨S100000x512, .f32⟩ : BufTy).Contents (Elt F)) (x1 : (⟨S2x400000, .i32⟩ : BufTy).Contents (Elt F))
    (x2 x3 : (⟨S512x256, .f32⟩ : BufTy).Contents (Elt F)) (x4 : (⟨S256, .f32⟩ : BufTy).Contents (Elt F))
    (h29 : W (Proc.devRef .tc main_v29) = val_main_v29 (F := F) x0 x1 x2 x3 x4)
    (h1 : W (Proc.devRef .tc main_v1) = val_main_v1 (F := F) x1) (h3 : W (Proc.devRef .tc main_v3) = val_main_v3 (F := F) x1) :
    after opsB1 W (Proc.devRef .tc main_v54)
      = val_main_v54 (F := F) x0 x1 x2 x3 x4 (W (Proc.devRef .tc main_arg5)) (W (Proc.devRef .tc main_arg6)) (W (Proc.devRef .tc main_arg7)) := by
  after_results_simp
  rw [h29, h1, h3]
  simp only [val_main_c_4, val_main_v30, val_main_v31, val_main_c_5, val_main_v32, val_main_v33, val_main_v34, val_main_v35, val_main_v36, val_main_cst_6, val_main_v37, val_main_v38, val_main_v39, val_main_cst_7, val_main_v40, val_main_cst_8, val_main_v41, val_main_v42, val_main_v43, val_main_cst_9, val_main_v44, val_main_v45, val_main_v46, val_main_v47, val_main_v48, val_main_v49, val_main_v50, val_main_v51, val_main_v52, val_main_v53, val_main_v54]
theorem stageB1_arg0 (W : Valuation τ sig (Elt F)) : after opsB1 W (Proc.devRef .tc main_arg0) = W (Proc.devRef .tc main_arg0) := by
  after_results_simp
theorem stageB1_arg1 (W : Valuation τ sig (Elt F)) : after opsB1 W (Proc.devRef .tc main_arg1) = W (Proc.devRef .tc main_arg1) := by
  after_results_simp
theorem stageB1_arg2 (W : Valuation τ sig (Elt F)) : after opsB1 W (Proc.devRef .tc main_arg2) = W (Proc.devRef .tc main_arg2) := by
  after_results_simp
theorem stageB1_arg3 (W : Valuation τ sig (Elt F)) : after opsB1 W (Proc.devRef .tc main_arg3) = W (Proc.devRef .tc main_arg3) := by
  after_results_simp
theorem stageB1_arg4 (W : Valuation τ sig (Elt F)) : after opsB1 W (Proc.devRef .tc main_arg4) = W (Proc.devRef .tc main_arg4) := by
  after_results_simp
theorem stageB1_arg5 (W : Valuation τ sig (Elt F)) : after opsB1 W (Proc.devRef .tc main_arg5) = W (Proc.devRef .tc main_arg5) := by
  after_results_simp
theorem stageB1_arg6 (W : Valuation τ sig (Elt F)) : after opsB1 W (Proc.devRef .tc main_arg6) = W (Proc.devRef .tc main_arg6) := by
  after_results_simp
theorem stageB1_arg7 (W : Valuation τ sig (Elt F)) : after opsB1 W (Proc.devRef .tc main_arg7) = W (Proc.devRef .tc main_arg7) := by
  after_results_simp

/-! ## The third stretch -/

set_option maxHeartbeats 8000000 in
theorem stageB2_v55 (W : Valuation τ sig (Elt F)) (x0 : (⟨S100000x512, .f32⟩ : BufTy).Contents (Elt F)) (x1 : (⟨S2x400000, .i32⟩ : BufTy).Contents (Elt F))
    (x2 x3 : (⟨S512x256, .f32⟩ : BufTy).Contents (Elt F)) (x4 : (⟨S256, .f32⟩ : BufTy).Contents (Elt F))
    (x5 x6 : (⟨S256x129, .f32⟩ : BufTy).Contents (Elt F)) (x7 : (⟨S129, .f32⟩ : BufTy).Contents (Elt F))
    (h54 : W (Proc.devRef .tc main_v54) = val_main_v54 (F := F) x0 x1 x2 x3 x4 x5 x6 x7) :
    after opsB2 W (Proc.devRef .tc main_v55) = val_main_v55 (F := F) x0 x1 x2 x3 x4 x5 x6 x7 := by
  after_results_simp
  simp only [ofBuf_toBuf']
  rw [toBuf_v55, ofBuf_v54, h54]
  simp only [val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v55]
theorem stageB2_arg0 (W : Valuation τ sig (Elt F)) : after opsB2 W (Proc.devRef .tc main_arg0) = W (Proc.devRef .tc main_arg0) := by
  after_results_simp
theorem stageB2_arg1 (W : Valuation τ sig (Elt F)) : after opsB2 W (Proc.devRef .tc main_arg1) = W (Proc.devRef .tc main_arg1) := by
  after_results_simp
theorem stageB2_arg2 (W : Valuation τ sig (Elt F)) : after opsB2 W (Proc.devRef .tc main_arg2) = W (Proc.devRef .tc main_arg2) := by
  after_results_simp
theorem stageB2_arg3 (W : Valuation τ sig (Elt F)) : after opsB2 W (Proc.devRef .tc main_arg3) = W (Proc.devRef .tc main_arg3) := by
  after_results_simp
theorem stageB2_arg4 (W : Valuation τ sig (Elt F)) : after opsB2 W (Proc.devRef .tc main_arg4) = W (Proc.devRef .tc main_arg4) := by
  after_results_simp
theorem stageB2_arg5 (W : Valuation τ sig (Elt F)) : after opsB2 W (Proc.devRef .tc main_arg5) = W (Proc.devRef .tc main_arg5) := by
  after_results_simp
theorem stageB2_arg6 (W : Valuation τ sig (Elt F)) : after opsB2 W (Proc.devRef .tc main_arg6) = W (Proc.devRef .tc main_arg6) := by
  after_results_simp
theorem stageB2_arg7 (W : Valuation τ sig (Elt F)) : after opsB2 W (Proc.devRef .tc main_arg7) = W (Proc.devRef .tc main_arg7) := by
  after_results_simp

/-! ## The run -/

/-- The result buffer after the whole list, from the launch contents. -/
theorem result_after (m : (ℓ : Loc nD τ sig) → Buf (Elt F) ℓ) (c : Dev nD) :
    after (ops : List (HloOp τ sig (Elt F))) (launchContents m c) (Proc.devRef .tc main_v55)
      = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, StableHlo.after_append, StableHlo.after_append]
  refine stageB2_v55 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ?_
  refine (stageB1_v54 (after opsA (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (stageA_v29 _) (stageA_v1 _) (stageA_v3 _)).trans ?_
  rw [stageA_arg5, stageA_arg6, stageA_arg7]
theorem arg0_after (m : (ℓ : Loc nD τ sig) → Buf (Elt F) ℓ) (c : Dev nD) :
    after (ops : List (HloOp τ sig (Elt F))) (launchContents m c) (Proc.devRef .tc main_arg0) = m ((c.tc : Thread nD τ).loc main_arg0) := by
  rw [ops_split, StableHlo.after_append, StableHlo.after_append, stageB2_arg0, stageB1_arg0, stageA_arg0]
theorem arg1_after (m : (ℓ : Loc nD τ sig) → Buf (Elt F) ℓ) (c : Dev nD) :
    after (ops : List (HloOp τ sig (Elt F))) (launchContents m c) (Proc.devRef .tc main_arg1) = m ((c.tc : Thread nD τ).loc main_arg1) := by
  rw [ops_split, StableHlo.after_append, StableHlo.after_append, stageB2_arg1, stageB1_arg1, stageA_arg1]
theorem arg2_after (m : (ℓ : Loc nD τ sig) → Buf (Elt F) ℓ) (c : Dev nD) :
    after (ops : List (HloOp τ sig (Elt F))) (launchContents m c) (Proc.devRef .tc main_arg2) = m ((c.tc : Thread nD τ).loc main_arg2) := by
  rw [ops_split, StableHlo.after_append, StableHlo.after_append, stageB2_arg2, stageB1_arg2, stageA_arg2]
theorem arg3_after (m : (ℓ : Loc nD τ sig) → Buf (Elt F) ℓ) (c : Dev nD) :
    after (ops : List (HloOp τ sig (Elt F))) (launchContents m c) (Proc.devRef .tc main_arg3) = m ((c.tc : Thread nD τ).loc main_arg3) := by
  rw [ops_split, StableHlo.after_append, StableHlo.after_append, stageB2_arg3, stageB1_arg3, stageA_arg3]
theorem arg4_after (m : (ℓ : Loc nD τ sig) → Buf (Elt F) ℓ) (c : Dev nD) :
    after (ops : List (HloOp τ sig (Elt F))) (launchContents m c) (Proc.devRef .tc main_arg4) = m ((c.tc : Thread nD τ).loc main_arg4) := by
  rw [ops_split, StableHlo.after_append, StableHlo.after_append, stageB2_arg4, stageB1_arg4, stageA_arg4]
theorem arg5_after (m : (ℓ : Loc nD τ sig) → Buf (Elt F) ℓ) (c : Dev nD) :
    after (ops : List (HloOp τ sig (Elt F))) (launchContents m c) (Proc.devRef .tc main_arg5) = m ((c.tc : Thread nD τ).loc main_arg5) := by
  rw [ops_split, StableHlo.after_append, StableHlo.after_append, stageB2_arg5, stageB1_arg5, stageA_arg5]
theorem arg6_after (m : (ℓ : Loc nD τ sig) → Buf (Elt F) ℓ) (c : Dev nD) :
    after (ops : List (HloOp τ sig (Elt F))) (launchContents m c) (Proc.devRef .tc main_arg6) = m ((c.tc : Thread nD τ).loc main_arg6) := by
  rw [ops_split, StableHlo.after_append, StableHlo.after_append, stageB2_arg6, stageB1_arg6, stageA_arg6]
theorem arg7_after (m : (ℓ : Loc nD τ sig) → Buf (Elt F) ℓ) (c : Dev nD) :
    after (ops : List (HloOp τ sig (Elt F))) (launchContents m c) (Proc.devRef .tc main_arg7) = m ((c.tc : Thread nD τ).loc main_arg7) := by
  rw [ops_split, StableHlo.after_append, StableHlo.after_append, stageB2_arg7, stageB1_arg7, stageA_arg7]

/-- On every device, from any memory with zero counters: every weakly fair execution of @main terminates with the result at
    its last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (result_after m c),
      (h c main_arg0).trans (arg0_after m c),
      (h c main_arg1).trans (arg1_after m c),
      (h c main_arg2).trans (arg2_after m c),
      (h c main_arg3).trans (arg3_after m c),
      (h c main_arg4).trans (arg4_after m c),
      (h c main_arg5).trans (arg5_after m c),
      (h c main_arg6).trans (arg6_after m c),
      (h c main_arg7).trans (arg7_after m c)⟩)
    (run_seq scopedRefs_eq scopedSems_eq defs main (fun _ => ops) main_eq (fun _ => ops_sub) m ρ)

end Cert.ReferenceIdeal.Hand

end
-- ==== Proof.RefValue.lean ====
/-
  The reference program's stages read at an index, against the layer functions of KSpec: its hidden features are
  `hidden` and its result is `result` of the same host functions of the arguments (the neighbour sums, the in-degrees).
  The two programs differ in three places. The reference divides a neighbour sum by `max(deg, 1)` where the kernel
  multiplies it by `1 / max(deg, 1)`: for a divisor that is not zero both are the product with the divisor's inverse.
  The reference adds the bias before the second product where the kernel adds it after: addition on the extended reals
  is commutative and associative. And the reference takes the maximum of minus infinity's word with the row maximum
  folded from it: the fold is above its starting value.
-/
import proofs.«177995_j52905407152430_1_alg».proof.Proof.RefRead
import proofs.«177995_j52905407152430_1_alg».proof.Proof.KSpec
import proofs.«177995_j52905407152430_1_alg».proof.Proof.KHostDefs
import proofs.«177995_j52905407152430_1_alg».proof.Proof.KResult
import proofs.«177995_j52905407152430_1_alg».proof.Proof.LibKeepdims
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.ReferenceIdeal.ReadP Idealize.ShloMosaic Idealize.ShloMosaic.ValueIdx
open Cert.KernelIdeal.Hand
open scoped BigOperators

/-! ## The host functions are the kernel program's -/

section AnyF
variable {F : FTy → Type} [FloatOps F]

theorem nbr1_eq (x0 : (⟨S100000x512, .f32⟩ : BufTy).Contents (Elt F)) (x1 : (⟨S2x400000, .i32⟩ : BufTy).Contents (Elt F)) :
    val_main_v13 (F := F) x0 x1 = nbrSum1 (F := F) x0 x1 := rfl
theorem deg1_eq (x1 : (⟨S2x400000, .i32⟩ : BufTy).Contents (Elt F)) : val_main_v17 (F := F) x1 = degree (F := F) x1 := rfl
theorem deg2_eq (x1 : (⟨S2x400000, .i32⟩ : BufTy).Contents (Elt F)) : val_main_v43 (F := F) x1 = degree (F := F) x1 := rfl
theorem nbr2_eq (x0 : (⟨S100000x512, .f32⟩ : BufTy).Contents (Elt F)) (x1 : (⟨S2x400000, .i32⟩ : BufTy).Contents (Elt F))
    (x2 x3 : (⟨S512x256, .f32⟩ : BufTy).Contents (Elt F)) (x4 : (⟨S256, .f32⟩ : BufTy).Contents (Elt F)) :
    val_main_v39 (F := F) x0 x1 x2 x3 x4 = nbrSum2 (F := F) (val_main_v29 (F := F) x0 x1 x2 x3 x4) x1 := rfl

end AnyF

/-! ## The arithmetic -/

theorem one_f32 : Ideal.ofBits .f32 0x3F800000#32 = 1 := IdealRules.sign_bit.ideal_onePat .f32

/-- For a divisor at least one, a quotient is the dividend times the reciprocal. -/
theorem div_eq_mul_recip (a d : EReal) (hd : (1 : EReal) ≤ d) : Ideal.div a d = a * Ideal.div 1 d := by
  have h01 : (0 : EReal) < 1 := by exact_mod_cast (zero_lt_one : (0 : ℝ) < 1)
  have hd0 : d ≠ 0 := fun h => absurd (h ▸ hd) (not_le.mpr h01)
  unfold Ideal.div
  rw [if_neg hd0, if_neg hd0, one_mul]

/-- The two layers' linear parts against each other, over any finite contracted index: the reference divides each
    neighbour sum by the divisor and adds the bias before the second product; the kernel multiplies by the reciprocal
    and adds the bias last. -/
theorem lin_bridge {κ : Type} [Fintype κ] (a x wl wr : κ → EReal) (d b : EReal) (hd : (1 : EReal) ≤ d) :
    ((∑ k, Ideal.div (a k) d * wl k) + b) + ∑ k, x k * wr k
      = ((∑ k, (a k * Ideal.div 1 d) * wl k) + ∑ k, x k * wr k) + b := by
  have h : ∀ k, Ideal.div (a k) d * wl k = (a k * Ideal.div 1 d) * wl k := fun k => by rw [div_eq_mul_recip _ _ hd]
  rw [add_right_comm]
  simp only [h]

/-- A fold of `max` is above the value it starts from. -/
theorem max_init_fold (b : EReal) (L : Fin 129 → EReal) :
    max b ((Finset.univ : Finset (Fin 129)).fold max b L) = (Finset.univ : Finset (Fin 129)).fold max b L :=
  max_eq_right ((Finset.le_fold_max _).2 (Or.inl le_rfl))

/-! ## The reciprocal-degree column and the reference's divisor at an index -/

/-- The reciprocal-degree column at row `i`: one over the larger of the in-degree and one. -/
theorem recip_apply (x1 : (⟨S2x400000, .i32⟩ : BufTy).Contents (Elt Ideal)) (i : Fin 100000) :
    recipDeg (F := Ideal) x1 (ix2 i (0 : Fin 1)) = Ideal.div 1 (max (degree (F := Ideal) x1 (ix1 i)) 1) := by
  unfold recipDeg
  rw [shapeCast_a_a1_apply]
  simp only [Host.divf, maximumf, broadcastInDim, constant, Ideal.hostDivf_def, Ideal.maximumf_def, Ideal.ofBits_def, one_f32]

/-- The first layer's divisor at (i, k): the larger of the in-degree of row `i` and one. -/
theorem den1_apply (x1 : (⟨S2x400000, .i32⟩ : BufTy).Contents (Elt Ideal)) (i : Fin 100000) (k : Fin 512) :
    val_main_v21 (F := Ideal) x1 (ix2 i k) = max (degree (F := Ideal) x1 (ix1 i)) 1 := by
  rw [val_main_v21_apply, val_main_v20_apply, val_main_v19_apply, val_main_v18_apply, val_main_cst_3_apply, deg1_eq]
  simp only [Ideal.maximumf_def, Ideal.ofBits_def, one_f32]
  refine congrArg (max · 1) (congrArg (degree (F := Ideal) x1) (funext fun a => Fin.ext ?_))
  match a with
  | ⟨0, _⟩ => rfl

/-- The second layer's divisor at (i, k): the same. -/
theorem den2_apply (x1 : (⟨S2x400000, .i32⟩ : BufTy).Contents (Elt Ideal)) (i : Fin 100000) (k : Fin 256) :
    val_main_v47 (F := Ideal) x1 (ix2 i k) = max (degree (F := Ideal) x1 (ix1 i)) 1 := by
  rw [val_main_v47_apply, val_main_v46_apply, val_main_v45_apply, val_main_v44_apply, val_main_cst_9_apply, deg2_eq]
  simp only [Ideal.maximumf_def, Ideal.ofBits_def, one_f32]
  refine congrArg (max · 1) (congrArg (degree (F := Ideal) x1) (funext fun a => Fin.ext ?_))
  match a with
  | ⟨0, _⟩ => rfl

/-! ## The first layer -/

/-- The reference's first linear stage at (i, j) is the first layer's linear part. -/
theorem ref_lin1 (x0 : (⟨S100000x512, .f32⟩ : BufTy).Contents (Elt Ideal)) (x1 : (⟨S2x400000, .i32⟩ : BufTy).Contents (Elt Ideal)) (x2 x3 : (⟨S512x256, .f32⟩ : BufTy).Contents (Elt Ideal)) (x4 : (⟨S256, .f32⟩ : BufTy).Contents (Elt Ideal)) (i : Fin 100000) (j : Fin 256) :
    val_main_v28 (F := Ideal) x0 x1 x2 x3 x4 (ix2 i j)
      = lin1 x0 (nbrSum1 (F := Ideal) x0 x1) (recipDeg (F := Ideal) x1) x2 x3 (shapeCast Cert.KernelIdeal.S1x256 x4 Cert.KernelIdeal.Gen.shapeCasts_S256_S1x256) i j := by
  have hl23 : ∀ k : Fin 512, lidx_main_v23 (ix2 i j) k = ix2 i k := fun k => funext fun a => Fin.ext (by
    match a with
    | ⟨0, _⟩ => rfl
    | ⟨1, _⟩ => rfl)
  have hr23 : ∀ k : Fin 512, ridx_main_v23 (ix2 i j) k = ix2 k j := fun k => funext fun a => Fin.ext (by
    match a with
    | ⟨0, _⟩ => rfl
    | ⟨1, _⟩ => rfl)
  have hl27 : ∀ k : Fin 512, lidx_main_v27 (ix2 i j) k = ix2 i k := fun k => funext fun a => Fin.ext (by
    match a with
    | ⟨0, _⟩ => rfl
    | ⟨1, _⟩ => rfl)
  have hr27 : ∀ k : Fin 512, ridx_main_v27 (ix2 i j) k = ix2 k j := fun k => funext fun a => Fin.ext (by
    match a with
    | ⟨0, _⟩ => rfl
    | ⟨1, _⟩ => rfl)
  have hb : idx_main_v24 (idx_main_v25 (ix2 i j)) = ix1 j := funext fun a => Fin.ext (by
    match a with
    | ⟨0, _⟩ => rfl)
  rw [val_main_v28_apply, val_main_v26_apply, val_main_v23_apply, val_main_v27_apply, val_main_v25_apply, val_main_v24_apply]
  simp only [val_main_v22_apply, hl23, hr23, hl27, hr27, hb, den1_apply, nbr1_eq, Ideal.hostDivf_def, Ideal.addf_def]
  unfold lin1
  simp only [recip_apply, shapeCast_a_1a_apply]
  exact lin_bridge (fun k => nbrSum1 (F := Ideal) x0 x1 (ix2 i k)) (fun k => x0 (ix2 i k)) (fun k => x2 (ix2 k j)) (fun k => x3 (ix2 k j))
    (max (degree (F := Ideal) x1 (ix1 i)) 1) (x4 (ix1 j)) (le_max_right _ _)

/-- The reference's hidden features are the first layer's. -/
theorem ref_hidden (x0 : (⟨S100000x512, .f32⟩ : BufTy).Contents (Elt Ideal)) (x1 : (⟨S2x400000, .i32⟩ : BufTy).Contents (Elt Ideal)) (x2 x3 : (⟨S512x256, .f32⟩ : BufTy).Contents (Elt Ideal)) (x4 : (⟨S256, .f32⟩ : BufTy).Contents (Elt Ideal)) :
    val_main_v29 (F := Ideal) x0 x1 x2 x3 x4
      = hidden x0 (nbrSum1 (F := Ideal) x0 x1) (recipDeg (F := Ideal) x1) x2 x3 (shapeCast Cert.KernelIdeal.S1x256 x4 Cert.KernelIdeal.Gen.shapeCasts_S256_S1x256) := by
  funext y
  obtain ⟨i, j, rfl⟩ : ∃ (i : Fin 100000) (j : Fin 256), y = ix2 i j := ⟨y 0, y 1, eq_ix2 y⟩
  rw [val_main_v29_apply, val_main_call0_v0_apply, val_main_call0_cst_apply, ref_lin1]
  rfl

/-! ## The second layer -/

/-- The reference's second linear stage (the logits) at (i, j) is the second layer's linear part of its hidden features. -/
theorem ref_lin2 (x0 : (⟨S100000x512, .f32⟩ : BufTy).Contents (Elt Ideal)) (x1 : (⟨S2x400000, .i32⟩ : BufTy).Contents (Elt Ideal)) (x2 x3 : (⟨S512x256, .f32⟩ : BufTy).Contents (Elt Ideal)) (x4 : (⟨S256, .f32⟩ : BufTy).Contents (Elt Ideal)) (x5 x6 : (⟨S256x129, .f32⟩ : BufTy).Contents (Elt Ideal)) (x7 : (⟨S129, .f32⟩ : BufTy).Contents (Elt Ideal)) (i : Fin 100000) (j : Fin 129) :
    val_main_v54 (F := Ideal) x0 x1 x2 x3 x4 x5 x6 x7 (ix2 i j)
      = lin2 (val_main_v29 (F := Ideal) x0 x1 x2 x3 x4) (nbrSum2 (F := Ideal) (val_main_v29 (F := Ideal) x0 x1 x2 x3 x4) x1) (recipDeg (F := Ideal) x1) x5 x6
          (shapeCast Cert.KernelIdeal.S1x129 x7 Cert.KernelIdeal.Gen.shapeCasts_S129_S1x129) i j := by
  have hl49 : ∀ k : Fin 256, lidx_main_v49 (ix2 i j) k = ix2 i k := fun k => funext fun a => Fin.ext (by
    match a with
    | ⟨0, _⟩ => rfl
    | ⟨1, _⟩ => rfl)
  have hr49 : ∀ k : Fin 256, ridx_main_v49 (ix2 i j) k = ix2 k j := fun k => funext fun a => Fin.ext (by
    match a with
    | ⟨0, _⟩ => rfl
    | ⟨1, _⟩ => rfl)
  have hl53 : ∀ k : Fin 256, lidx_main_v53 (ix2 i j) k = ix2 i k := fun k => funext fun a => Fin.ext (by
    match a with
    | ⟨0, _⟩ => rfl
    | ⟨1, _⟩ => rfl)
  have hr53 : ∀ k : Fin 256, ridx_main_v53 (ix2 i j) k = ix2 k j := fun k => funext fun a => Fin.ext (by
    match a with
    | ⟨0, _⟩ => rfl
    | ⟨1, _⟩ => rfl)
  have hb : idx_main_v50 (idx_main_v51 (ix2 i j)) = ix1 j := funext fun a => Fin.ext (by
    match a with
    | ⟨0, _⟩ => rfl)
  rw [val_main_v54_apply, val_main_v52_apply, val_main_v49_apply, val_main_v53_apply, val_main_v51_apply, val_main_v50_apply]
  simp only [val_main_v48_apply, hl49, hr49, hl53, hr53, hb, den2_apply, nbr2_eq, Ideal.hostDivf_def, Ideal.addf_def]
  unfold lin2
  simp only [recip_apply, shapeCast_a_1a_apply]
  exact lin_bridge (fun k => nbrSum2 (F := Ideal) (val_main_v29 (F := Ideal) x0 x1 x2 x3 x4) x1 (ix2 i k))
    (fun k => val_main_v29 (F := Ideal) x0 x1 x2 x3 x4 (ix2 i k)) (fun k => x5 (ix2 k j)) (fun k => x6 (ix2 k j))
    (max (degree (F := Ideal) x1 (ix1 i)) 1) (x7 (ix1 j)) (le_max_right _ _)

/-- The host's row maximum of an array `X` at row `i`: the fold of `max` over the row from minus infinity's word. -/
theorem rowmax_ref (X : FVec Ideal S100000x129 .f32) (i : Fin 100000) :
    Host.reduce FloatOps.maximumf X (val_main_call1_cst (F := Ideal)) reducesTo_S100000x129_S100000_d1 h_S_ (ix1 i)
      = rowMax (fun q => X (ix2 i q)) := by
  refine (Host.reduce_eq_fold_single FloatOps.maximumf X _ reducesTo_S100000x129_S100000_d1 (by decide) h_S_ (ix1 i)).trans ?_
  unfold rowMax
  refine congrArg (Finset.fold max (Ideal.ofBits .f32 0xFF800000#32) · Finset.univ) (funext fun k => congrArg X (funext fun a => Fin.ext ?_))
  match a with
  | ⟨0, _⟩ => rfl
  | ⟨1, _⟩ => rfl

/-- The reference's result at (i, j) is the row-wise log-softmax of its logits' row `i`, at `j`. -/
theorem ref_softmax (x0 : (⟨S100000x512, .f32⟩ : BufTy).Contents (Elt Ideal)) (x1 : (⟨S2x400000, .i32⟩ : BufTy).Contents (Elt Ideal)) (x2 x3 : (⟨S512x256, .f32⟩ : BufTy).Contents (Elt Ideal)) (x4 : (⟨S256, .f32⟩ : BufTy).Contents (Elt Ideal)) (x5 x6 : (⟨S256x129, .f32⟩ : BufTy).Contents (Elt Ideal)) (x7 : (⟨S129, .f32⟩ : BufTy).Contents (Elt Ideal)) (i : Fin 100000) (j : Fin 129) :
    val_main_v55 (F := Ideal) x0 x1 x2 x3 x4 x5 x6 x7 (ix2 i j)
      = logSoftmaxRow (fun q => val_main_v54 (F := Ideal) x0 x1 x2 x3 x4 x5 x6 x7 (ix2 i q)) j := by
  have hrow : ∀ q : Fin 129, val_main_call1_v4 (F := Ideal) x0 x1 x2 x3 x4 x5 x6 x7 (ix2 i q)
      = rowMax (fun q' => val_main_v54 (F := Ideal) x0 x1 x2 x3 x4 x5 x6 x7 (ix2 i q')) := fun q => by
    have hi : idx_main_call1_v3 (idx_main_call1_v4 (ix2 i q)) = ix1 i := funext fun a => Fin.ext (by
      match a with
      | ⟨0, _⟩ => rfl)
    rw [val_main_call1_v4_apply, val_main_call1_v3_apply, val_main_call1_v2_apply, val_main_call1_v1_apply, val_main_call1_cst_0_apply, hi]
    unfold val_main_call1_v0
    rw [rowmax_ref]
    exact max_init_fold _ _
  have h5 : ∀ q : Fin 129, val_main_call1_v5 (F := Ideal) x0 x1 x2 x3 x4 x5 x6 x7 (ix2 i q)
      = val_main_v54 (F := Ideal) x0 x1 x2 x3 x4 x5 x6 x7 (ix2 i q) - rowMax (fun q' => val_main_v54 (F := Ideal) x0 x1 x2 x3 x4 x5 x6 x7 (ix2 i q')) := fun q => by
    rw [val_main_call1_v5_apply, hrow]; rfl
  have hi8 : idx_main_call1_v8 (idx_main_call1_v10 (ix2 i j)) = ix1 i := funext fun a => Fin.ext (by
    match a with
    | ⟨0, _⟩ => rfl)
  have hi7 : ∀ k : Fin 129, idx_main_call1_v7 (ix1 i) k = ix2 i k := fun k => funext fun a => Fin.ext (by
    match a with
    | ⟨0, _⟩ => rfl
    | ⟨1, _⟩ => rfl)
  rw [val_main_v55_apply, val_main_call1_v10_apply, val_main_call1_v9_apply, val_main_call1_v8_apply, hi8, val_main_call1_v7_apply]
  simp only [hi7, val_main_call1_v6_apply, h5, val_main_call1_cst_1_apply]
  unfold logSoftmaxRow
  simp only [Ideal.subf_def, Ideal.hostUnary_log_def, Ideal.hostUnary_exp_def, Ideal.ofBits_def, Ideal.ofBits_zero_f32, zero_add]

/-- The reference's last stage is the program's result function of the arguments. -/
theorem ref_result (x0 : (⟨S100000x512, .f32⟩ : BufTy).Contents (Elt Ideal)) (x1 : (⟨S2x400000, .i32⟩ : BufTy).Contents (Elt Ideal)) (x2 x3 : (⟨S512x256, .f32⟩ : BufTy).Contents (Elt Ideal)) (x4 : (⟨S256, .f32⟩ : BufTy).Contents (Elt Ideal)) (x5 x6 : (⟨S256x129, .f32⟩ : BufTy).Contents (Elt Ideal)) (x7 : (⟨S129, .f32⟩ : BufTy).Contents (Elt Ideal)) :
    val_main_v55 (F := Ideal) x0 x1 x2 x3 x4 x5 x6 x7 = resultOf x0 x1 x2 x3 x4 x5 x6 x7 := by
  funext y
  obtain ⟨i, j, rfl⟩ : ∃ (i : Fin 100000) (j : Fin 129), y = ix2 i j := ⟨y 0, y 1, eq_ix2 y⟩
  rw [ref_softmax]
  unfold resultOf result hiddenOf
  show _ = logSoftmaxRow (lin2 _ _ _ _ _ _ i) j
  refine congrArg (logSoftmaxRow · j) (funext fun q => ?_)
  rw [ref_lin2, ref_hidden]

end Cert.ReferenceIdeal.Hand

end
-- ==== Proof.lean ====
/-
  Two mean-aggregating graph layers (neighbour sums by gather and scatter-add on the host, the dense part of each layer
  in a row-tiled kernel region) against the plain reference. Both programs compute, on the extended reals, one function
  of the arguments: `Cert.KernelIdeal.Hand.resultOf`. The kernel program's result array is read off its two regions'
  write-backs (KValue); the reference's run ends at its last stage (RefRunHand), which is that function index by index
  (RefValue): the kernel scales a neighbour sum by the reciprocal of `max(deg, 1)` where the reference divides by it, the
  bias is added in another order, and the row maximum is folded from minus infinity in both. The in-degrees and the
  neighbour sums are the same host operations in both programs and are never opened.
-/
import proofs.«177995_j52905407152430_1_alg».proof.Defs
import proofs.«177995_j52905407152430_1_alg».proof.Proof.Gen.Kernel
import proofs.«177995_j52905407152430_1_alg».proof.Proof.Gen.Kernel.Frame
import proofs.«177995_j52905407152430_1_alg».proof.Proof.Gen.KernelIdeal
import proofs.«177995_j52905407152430_1_alg».proof.Proof.Gen.KernelIdeal.Frame
import proofs.«177995_j52905407152430_1_alg».proof.Proof.Gen.ReferenceIdeal
import proofs.«177995_j52905407152430_1_alg».proof.Proof.Gen.Pre_finite_inputs
import proofs.«177995_j52905407152430_1_alg».proof.Proof.KValue
import proofs.«177995_j52905407152430_1_alg».proof.Proof.RefRunHand
import proofs.«177995_j52905407152430_1_alg».proof.Proof.RefValue
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments both programs end with the result array at the one function of the
    arguments. -/
theorem algebraic : Cert.algebraic_KernelIdeal_ReferenceIdeal := by
  intro m ρ m' ρ' _ hagree
  refine ⟨fun c => Cert.KernelIdeal.Hand.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  exact Cert.ReferenceIdeal.Hand.ref_result _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
